-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x8192 : Shape := ⟨3, ![64, 4, 8192]⟩
abbrev S8192x8192 : Shape := ⟨2, ![8192, 8192]⟩
abbrev S128x8192 : Shape := ⟨2, ![128, 8192]⟩
abbrev S8192 : Shape := ⟨1, ![8192]⟩
abbrev S8192x32 : Shape := ⟨2, ![8192, 32]⟩
abbrev S_ : Shape := ⟨0, ![]⟩

class Facts : Prop where
  bcast_S_S64x4x8192 : S_.BroadcastsInDim S64x4x8192 (![] : Fin 0 → Fin S64x4x8192.rank)
  reducesTo_S64x4x8192_S_d0_1_2 : S64x4x8192.ReducesTo [0, 1, 2] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S8192 : S_.BroadcastsInDim S8192 (![] : Fin 0 → Fin S8192.rank)
  reducesTo_S8192_S_d0 : S8192.ReducesTo [0] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg5 : FVec F S8192x32 .f32) (main_arg6 : FVec F S8192 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x32 .f32 := Host.absf main_arg5
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S8192 .f32 := Host.absf main_arg6
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S64x4x8192 .f32) (main_arg1 : IVec S8192x8192 32) (main_arg2 : FVec F S128x8192 .f32) (main_arg3 : FVec F S8192 .f32) (main_arg4 : FVec F S8192x32 .f32) (main_arg5 : FVec F S8192x32 .f32) (main_arg6 : FVec F S8192 .f32) : IVec S_ 1 :=
  let main_v0 : FVec F S64x4x8192 .f32 := Host.absf main_arg0
  let main_cst : FVec F S_ .f32 := constant S_ .f32 0x7F800000#32
  let main_v1 : FVec F S64x4x8192 .f32 := broadcastInDim S64x4x8192 ![] bcast_S_S64x4x8192 main_cst
  let main_v2 : IVec S64x4x8192 1 := cmpf .olt main_v0 main_v1
  let main_c : IVec S_ 1 := constantI S_ 1 1#1
  let main_v3 : IVec S_ 1 := (fun x v => Host.reduce IntOp.andi x v reducesTo_S64x4x8192_S_d0_1_2 h_S_) main_v2 main_c
  let main_v4 : FVec F S128x8192 .f32 := Host.absf main_arg2
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x32 .f32 := Host.absf main_arg4
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg5 main_arg6 main_v13 main_v16
-- ==== Kernel.lean ====
abbrev S64x4x8192 : Shape := ⟨3, ![64, 4, 8192]⟩
abbrev S8192x8192 : Shape := ⟨2, ![8192, 8192]⟩
abbrev S128x8192 : Shape := ⟨2, ![128, 8192]⟩
abbrev S8192 : Shape := ⟨1, ![8192]⟩
abbrev S8192x32 : Shape := ⟨2, ![8192, 32]⟩
abbrev S256x8192 : Shape := ⟨2, ![256, 8192]⟩
abbrev S256x32 : Shape := ⟨2, ![256, 32]⟩
abbrev S32x8192 : Shape := ⟨2, ![32, 8192]⟩
abbrev S1x8192 : Shape := ⟨2, ![1, 8192]⟩
abbrev S256x128x64 : Shape := ⟨3, ![256, 128, 64]⟩
abbrev S_ : Shape := ⟨0, ![]⟩
abbrev S256x128 : Shape := ⟨2, ![256, 128]⟩
abbrev S256x128x1 : Shape := ⟨3, ![256, 128, 1]⟩
abbrev S128 : Shape := ⟨1, ![128]⟩
abbrev S128x1 : Shape := ⟨2, ![128, 1]⟩
abbrev S1024x1024 : Shape := ⟨2, ![1024, 1024]⟩
abbrev S256x1024 : Shape := ⟨2, ![256, 1024]⟩
abbrev S1x1024 : Shape := ⟨2, ![1, 1024]⟩
abbrev S16x1024 : Shape := ⟨2, ![16, 1024]⟩
abbrev S1024x16 : Shape := ⟨2, ![1024, 16]⟩

abbrev nBuf : Space → Nat
  | .hbm => 69
  | .vmem => 12
  | .smem => 0
  | _ => 0

abbrev bufTy : (tb : Table) → Fin (tcTables nBuf tb) → BufTy
  | .hbm, ⟨0, _⟩ => ⟨S64x4x8192, .f32⟩
  | .hbm, ⟨1, _⟩ => ⟨S8192x8192, .i32⟩
  | .hbm, ⟨2, _⟩ => ⟨S128x8192, .f32⟩
  | .hbm, ⟨3, _⟩ => ⟨S8192, .f32⟩
  | .hbm, ⟨4, _⟩ => ⟨S8192x32, .f32⟩
  | .hbm, ⟨5, _⟩ => ⟨S8192x32, .f32⟩
  | .hbm, ⟨6, _⟩ => ⟨S8192, .f32⟩
  | .hbm, ⟨7, _⟩ => ⟨S256x8192, .f32⟩
  | .hbm, ⟨8, _⟩ => ⟨S256x32, .f32⟩
  | .hbm, ⟨9, _⟩ => ⟨S32x8192, .f32⟩
  | .hbm, ⟨10, _⟩ => ⟨S256x8192, .f32⟩
  | .hbm, ⟨11, _⟩ => ⟨S1x8192, .f32⟩
  | .hbm, ⟨12, _⟩ => ⟨S256x8192, .f32⟩
  | .hbm, ⟨13, _⟩ => ⟨S256x8192, .f32⟩
  | .hbm, ⟨14, _⟩ => ⟨S256x128x64, .f32⟩
  | .hbm, ⟨15, _⟩ => ⟨S256x128x64, .f32⟩
  | .hbm, ⟨16, _⟩ => ⟨S_, .f32⟩
  | .hbm, ⟨17, _⟩ => ⟨S256x128, .f32⟩
  | .hbm, ⟨18, _⟩ => ⟨S256x128x1, .f32⟩
  | .hbm, ⟨19, _⟩ => ⟨S_, .f32⟩
  | .hbm, ⟨20, _⟩ => ⟨S256x128x1, .f32⟩
  | .hbm, ⟨21, _⟩ => ⟨S256x128x1, .f32⟩
  | .hbm, ⟨22, _⟩ => ⟨S_, .f32⟩
  | .hbm, ⟨23, _⟩ => ⟨S256x128x1, .f32⟩
  | .hbm, ⟨24, _⟩ => ⟨S256x128x1, .f32⟩
  | .hbm, ⟨25, _⟩ => ⟨S256x128x64, .f32⟩
  | .hbm, ⟨26, _⟩ => ⟨S256x128x64, .f32⟩
  | .hbm, ⟨27, _⟩ => ⟨S256x128x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S256x128x64, .f32⟩
  | .hbm, ⟨32, _⟩ => ⟨S256x128x64, .f32⟩
  | .hbm, ⟨33, _⟩ => ⟨S_, .f32⟩
  | .hbm, ⟨34, _⟩ => ⟨S256x128x64, .f32⟩
  | .hbm, ⟨35, _⟩ => ⟨S256x128x64, .f32⟩
  | .hbm, ⟨36, _⟩ => ⟨S256x128x64, .f32⟩
  | .hbm, ⟨37, _⟩ => ⟨S256x128x64, .f32⟩
  | .hbm, ⟨38, _⟩ => ⟨S256x8192, .f32⟩
  | .hbm, ⟨39, _⟩ => ⟨S256x8192, .bf16⟩
  | .hbm, ⟨40, _⟩ => ⟨S128, .i32⟩
  | .hbm, ⟨41, _⟩ => ⟨S128x1, .i32⟩
  | .hbm, ⟨42, _⟩ => ⟨S8192, .i32⟩
  | .hbm, ⟨43, _⟩ => ⟨S1x8192, .i32⟩
  | .hbm, ⟨44, _⟩ => ⟨S_, .i32⟩
  | .hbm, ⟨45, _⟩ => ⟨S_, .i32⟩
  | .hbm, ⟨46, _⟩ => ⟨S1x8192, .i32⟩
  | .hbm, ⟨47, _⟩ => ⟨S1x8192, .i32⟩
  | .hbm, ⟨48, _⟩ => ⟨S1x8192, .i32⟩
  | .hbm, ⟨49, _⟩ => ⟨S_, .i32⟩
  | .hbm, ⟨50, _⟩ => ⟨S1x8192, .i32⟩
  | .hbm, ⟨51, _⟩ => ⟨S1x8192, .i1⟩
  | .hbm, ⟨52, _⟩ => ⟨S1x8192, .i32⟩
  | .hbm, ⟨53, _⟩ => ⟨S1x8192, .i32⟩
  | .hbm, ⟨54, _⟩ => ⟨S_, .i32⟩
  | .hbm, ⟨55, _⟩ => ⟨S1x8192, .i32⟩
  | .hbm, ⟨56, _⟩ => ⟨S1x8192, .i1⟩
  | .hbm, ⟨57, _⟩ => ⟨S1x8192, .i1⟩
  | .hbm, ⟨58, _⟩ => ⟨S_, .i32⟩
  | .hbm, ⟨59, _⟩ => ⟨S1x8192, .i32⟩
  | .hbm, ⟨60, _⟩ => ⟨S1x8192, .i32⟩
  | .hbm, ⟨61, _⟩ => ⟨S1x8192, .i32⟩
  | .hbm, ⟨62, _⟩ => ⟨S128x8192, .i32⟩
  | .hbm, ⟨63, _⟩ => ⟨S128x8192, .i32⟩
  | .hbm, ⟨64, _⟩ => ⟨S128x8192, .i1⟩
  | .hbm, ⟨65, _⟩ => ⟨S128x8192, .bf16⟩
  | .hbm, ⟨66, _⟩ => ⟨S1x8192, .f32⟩
  | .hbm, ⟨67, _⟩ => ⟨S256x8192, .f32⟩
  | .hbm, ⟨68, _⟩ => ⟨S64x4x8192, .f32⟩
  | .local _ .vmem, ⟨0, _⟩ => ⟨S1024x1024, .i32⟩
  | .local _ .vmem, ⟨1, _⟩ => ⟨S1024x1024, .i32⟩
  | .local _ .vmem, ⟨2, _⟩ => ⟨S128x8192, .f32⟩
  | .local _ .vmem, ⟨3, _⟩ => ⟨S128x8192, .bf16⟩
  | .local _ .vmem, ⟨4, _⟩ => ⟨S256x8192, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S64x4x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c16_i32 : BitVec 32 := 16#32
  let v3 : BitVec 32 := Scalar.muli arg1 c16_i32
  v3
def k0_mult2 (i : grid0.Coords) : BitVec 32 :=
  let arg0 : BitVec 32 := BitVec.ofNat 32 (i 0).val
  let c1024_i32 : BitVec 32 := 1024#32
  let v5 : BitVec 32 := Scalar.muli arg0 c1024_i32
  v5
def k0_mult3 (i : grid0.Coords) : BitVec 32 :=
  let arg1 : BitVec 32 := BitVec.ofNat 32 (i 1).val
  let c1024_i32_1 : BitVec 32 := 1024#32
  let v7 : BitVec 32 := Scalar.muli arg1 c1024_i32_1
  v7
def k0_off1 (i : grid0.Coords) : Fin 2 → Nat :=
  let arg1 : BitVec 32 := BitVec.ofNat 32 (i 1).val
  let c16_i32 : BitVec 32 := 16#32
  let v3 : BitVec 32 := Scalar.muli arg1 c16_i32
  let v4 : BitVec 32 := v3
  let v9 : Index := Scalar.indexCast v4
  let arg0 : BitVec 32 := BitVec.ofNat 32 (i 0).val
  let c1024_i32 : BitVec 32 := 1024#32
  let v5 : BitVec 32 := Scalar.muli arg0 c1024_i32
  let v6 : BitVec 32 := v5
  let v10 : Index := Scalar.indexCast v6
  ![v9.toNat, v10.toNat]
def k0_off2 (i : grid0.Coords) : Fin 2 → Nat :=
  let arg1 : BitVec 32 := BitVec.ofNat 32 (i 1).val
  let c16_i32 : BitVec 32 := 16#32
  let v3 : BitVec 32 := Scalar.muli arg1 c16_i32
  let v4 : BitVec 32 := v3
  let v12 : Index := Scalar.indexCast v4
  let c1024_i32_1 : BitVec 32 := 1024#32
  let v7 : BitVec 32 := Scalar.muli arg1 c1024_i32_1
  let v8 : BitVec 32 := v7
  let v13 : Index := Scalar.indexCast v8
  ![v12.toNat, v13.toNat]
def k0_off3 (i : grid0.Coords) : Fin 2 → Nat :=
  let c0 : Index := 0#32
  let arg1 : BitVec 32 := BitVec.ofNat 32 (i 1).val
  let c1024_i32_1 : BitVec 32 := 1024#32
  let v7 : BitVec 32 := Scalar.muli arg1 c1024_i32_1
  let v8 : BitVec 32 := v7
  let v16 : Index := Scalar.indexCast v8
  ![0, v16.toNat]
def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_10 : BitVec 32 := 0#32
  let v36 : BitVec 1 := Scalar.cmpi .ne v35 c0_i32_10
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S64x4x8192_S256x8192 : S64x4x8192.ShapeCasts S256x8192
  transposes_S8192x32_S32x8192_1_0 : S8192x32.Transposes [1, 0] S32x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  shapeCasts_S256x8192_S256x128x64 : S256x8192.ShapeCasts S256x128x64
  reducesTo_S256x128x64_S256x128_d2 : S256x128x64.ReducesTo [2] S256x128
  h_S_ : 0 < S_.numel
  bcast_S256x128_S256x128x1_0_1 : S256x128.BroadcastsInDim S256x128x1 (![0, 1] : Fin 2 → Fin S256x128x1.rank)
  bcast_S_S256x128x1 : S_.BroadcastsInDim S256x128x1 (![] : Fin 0 → Fin S256x128x1.rank)
  bcast_S256x128x1_S256x128x64_0_1_2 : S256x128x1.BroadcastsInDim S256x128x64 (![0, 1, 2] : Fin 3 → Fin S256x128x64.rank)
  bcast_S_S256x128x64 : S_.BroadcastsInDim S256x128x64 (![] : Fin 0 → Fin S256x128x64.rank)
  shapeCasts_S256x128x64_S256x8192 : S256x128x64.ShapeCasts S256x8192
  bitsLt_bf16_f32 : FTy.bits .bf16 < FTy.bits .f32
  bcast_S128_S128x1_0 : S128.BroadcastsInDim S128x1 (![0] : Fin 1 → Fin S128x1.rank)
  bcast_S_S1x8192 : S_.BroadcastsInDim S1x8192 (![] : Fin 0 → Fin S1x8192.rank)
  bcast_S1x8192_S128x8192_0_1 : S1x8192.BroadcastsInDim S128x8192 (![0, 1] : Fin 2 → Fin S128x8192.rank)
  bcast_S128x1_S128x8192_0_1 : S128x1.BroadcastsInDim S128x8192 (![0, 1] : Fin 2 → Fin S128x8192.rank)
  shapeCasts_S8192_S1x8192 : S8192.ShapeCasts S1x8192
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S16x1024 : 0 < S16x1024.numel
  shapeCasts_S16x1024_S16x1024 : S16x1024.ShapeCasts S16x1024
  inb_S1024x1024_S1024x1024_0_0 : ∀ a, (![0, 0] : Fin 2 → Nat) a + S1024x1024.size a ≤ S1024x1024.size a
  h_S1024x1024 : 0 < S1024x1024.numel
  transposes_S16x1024_p1_0_S1024x16 : S16x1024.Transposes [1, 0] S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x8192_S64x4x8192 : S256x8192.ShapeCasts S64x4x8192
  dot_S256x8192_S8192x32_S256x32_1_0_0_1_n_n_wf : DotDims.WF S256x8192 S8192x32 S256x32 [1] [0] [0] [1] [] []
  dot_S256x32_S32x8192_S256x8192_1_0_0_1_n_n_wf : DotDims.WF S256x32 S32x8192 S256x8192 [1] [0] [0] [1] [] []
  dot_S1024x16_S16x1024_S1024x1024_1_0_0_1_n_n_wf : DotDims.WF S1024x16 S16x1024 S1024x1024 [1] [0] [0] [1] [] []
  dot_S256x1024_S1024x1024_S256x1024_1_1_0_0_n_n_wf : DotDims.WF S256x1024 S1024x1024 S256x1024 [1] [1] [0] [0] [] []
  hrank0 : 0 < grid0.rank
  k0_mult1_dvd : ∀ i : grid0.Coords, 16 ∣ (k0_mult1 i).toNat
  k0_mult2_dvd : ∀ i : grid0.Coords, 1024 ∣ (k0_mult2 i).toNat
  k0_mult3_dvd : ∀ i : grid0.Coords, 1024 ∣ (k0_mult3 i).toNat
  k0_off1_inb : ∀ i : grid0.Coords, ∀ a, (k0_off1 i) a + S16x1024.size a ≤ S128x8192.size a
  k0_off2_inb : ∀ i : grid0.Coords, ∀ a, (k0_off2 i) a + S16x1024.size a ≤ S128x8192.size a
  k0_off3_inb : ∀ i : grid0.Coords, ∀ a, (k0_off3 i) a + S256x1024.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .i32 = 32 ∨ (Rect.block (s := S8192x8192) S1024x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .f32 = 32 ∨ (Rect.block (s := S128x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x8192.size a
  hwx0_2 : ∀ i : grid0.Coords, EltTy.bits .bf16 = 32 ∨ (Rect.block (s := S128x8192) S128x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S256x8192.size a
  hwx0_3 : ∀ i : grid0.Coords, EltTy.bits .bf16 = 32 ∨ (Rect.block (s := S256x8192) S256x8192.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x8192.size a
  hwx0_4 : ∀ i : grid0.Coords, EltTy.bits .f32 = 32 ∨ (Rect.block (s := S256x8192) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x8192.size a
  hwx0_6 : ∀ i : grid0.Coords, EltTy.bits .f32 = 32 ∨ (Rect.block (s := S256x8192) S256x1024.size (cc0_transform_6 i) (hinb0_6 i)).WholeWords (EltTy.packing .f32)

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S32x8192_S256x8192_1_0_0_1_n_n : DotDims S256x32 S32x8192 S256x8192 where
  lhsContracting := [1]
  rhsContracting := [0]
  lhsNonContracting := [0]
  rhsNonContracting := [1]
  lhsBatch := []
  rhsBatch := []
  wf := dot_S256x32_S32x8192_S256x8192_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x4x8192 : Shape := ⟨3, ![64, 4, 8192]⟩
abbrev S8192x8192 : Shape := ⟨2, ![8192, 8192]⟩
abbrev S128x8192 : Shape := ⟨2, ![128, 8192]⟩
abbrev S8192 : Shape := ⟨1, ![8192]⟩
abbrev S8192x32 : Shape := ⟨2, ![8192, 32]⟩
abbrev S256x8192 : Shape := ⟨2, ![256, 8192]⟩
abbrev S256x32 : Shape := ⟨2, ![256, 32]⟩
abbrev S32x8192 : Shape := ⟨2, ![32, 8192]⟩
abbrev S1x8192 : Shape := ⟨2, ![1, 8192]⟩
abbrev S256x128x64 : Shape := ⟨3, ![256, 128, 64]⟩
abbrev S_ : Shape := ⟨0, ![]⟩
abbrev S256x128 : Shape := ⟨2, ![256, 128]⟩
abbrev S256x128x1 : Shape := ⟨3, ![256, 128, 1]⟩
abbrev S8192x128x64 : Shape := ⟨3, ![8192, 128, 64]⟩
abbrev S8192x128 : Shape := ⟨2, ![8192, 128]⟩
abbrev S8192x128x1 : Shape := ⟨3, ![8192, 128, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x4x8192, .f32⟩
  | .hbm, ⟨1, _⟩ => ⟨S8192x8192, .i32⟩
  | .hbm, ⟨2, _⟩ => ⟨S128x8192, .f32⟩
  | .hbm, ⟨3, _⟩ => ⟨S8192, .f32⟩
  | .hbm, ⟨4, _⟩ => ⟨S8192x32, .f32⟩
  | .hbm, ⟨5, _⟩ => ⟨S8192x32, .f32⟩
  | .hbm, ⟨6, _⟩ => ⟨S8192, .f32⟩
  | .hbm, ⟨7, _⟩ => ⟨S256x8192, .f32⟩
  | .hbm, ⟨8, _⟩ => ⟨S256x32, .f32⟩
  | .hbm, ⟨9, _⟩ => ⟨S32x8192, .f32⟩
  | .hbm, ⟨10, _⟩ => ⟨S256x8192, .f32⟩
  | .hbm, ⟨11, _⟩ => ⟨S1x8192, .f32⟩
  | .hbm, ⟨12, _⟩ => ⟨S256x8192, .f32⟩
  | .hbm, ⟨13, _⟩ => ⟨S256x8192, .f32⟩
  | .hbm, ⟨14, _⟩ => ⟨S256x128x64, .f32⟩
  | .hbm, ⟨15, _⟩ => ⟨S256x128x64, .f32⟩
  | .hbm, ⟨16, _⟩ => ⟨S_, .f32⟩
  | .hbm, ⟨17, _⟩ => ⟨S256x128, .f32⟩
  | .hbm, ⟨18, _⟩ => ⟨S256x128x1, .f32⟩
  | .hbm, ⟨19, _⟩ => ⟨S_, .f32⟩
  | .hbm, ⟨20, _⟩ => ⟨S256x128x1, .f32⟩
  | .hbm, ⟨21, _⟩ => ⟨S256x128x1, .f32⟩
  | .hbm, ⟨22, _⟩ => ⟨S_, .f32⟩
  | .hbm, ⟨23, _⟩ => ⟨S256x128x1, .f32⟩
  | .hbm, ⟨24, _⟩ => ⟨S256x128x1, .f32⟩
  | .hbm, ⟨25, _⟩ => ⟨S256x128x64, .f32⟩
  | .hbm, ⟨26, _⟩ => ⟨S256x128x64, .f32⟩
  | .hbm, ⟨27, _⟩ => ⟨S256x128x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S256x128x64, .f32⟩
  | .hbm, ⟨32, _⟩ => ⟨S256x128x64, .f32⟩
  | .hbm, ⟨33, _⟩ => ⟨S_, .f32⟩
  | .hbm, ⟨34, _⟩ => ⟨S256x128x64, .f32⟩
  | .hbm, ⟨35, _⟩ => ⟨S256x128x64, .f32⟩
  | .hbm, ⟨36, _⟩ => ⟨S256x128x64, .f32⟩
  | .hbm, ⟨37, _⟩ => ⟨S256x128x64, .f32⟩
  | .hbm, ⟨38, _⟩ => ⟨S256x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x128x64, .f32⟩
  | .hbm, ⟨44, _⟩ => ⟨S8192x128, .f32⟩
  | .hbm, ⟨45, _⟩ => ⟨S8192x128x1, .f32⟩
  | .hbm, ⟨46, _⟩ => ⟨S8192x128x64, .f32⟩
  | .hbm, ⟨47, _⟩ => ⟨S8192x128x64, .f32⟩
  | .hbm, ⟨48, _⟩ => ⟨S8192x8192, .f32⟩
  | .hbm, ⟨49, _⟩ => ⟨S8192x8192, .f32⟩
  | .hbm, ⟨50, _⟩ => ⟨S256x8192, .f32⟩
  | .hbm, ⟨51, _⟩ => ⟨S256x8192, .f32⟩
  | .hbm, ⟨52, _⟩ => ⟨S1x8192, .f32⟩
  | .hbm, ⟨53, _⟩ => ⟨S256x8192, .f32⟩
  | .hbm, ⟨54, _⟩ => ⟨S256x8192, .f32⟩
  | .hbm, ⟨55, _⟩ => ⟨S64x4x8192, .f32⟩
  | _, _ => ⟨S64x4x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  shapeCasts_S64x4x8192_S256x8192 : S64x4x8192.ShapeCasts S256x8192
  transposes_S8192x32_S32x8192_1_0 : S8192x32.Transposes [1, 0] S32x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  shapeCasts_S256x8192_S256x128x64 : S256x8192.ShapeCasts S256x128x64
  reducesTo_S256x128x64_S256x128_d2 : S256x128x64.ReducesTo [2] S256x128
  h_S_ : 0 < S_.numel
  bcast_S256x128_S256x128x1_0_1 : S256x128.BroadcastsInDim S256x128x1 (![0, 1] : Fin 2 → Fin S256x128x1.rank)
  bcast_S_S256x128x1 : S_.BroadcastsInDim S256x128x1 (![] : Fin 0 → Fin S256x128x1.rank)
  bcast_S256x128x1_S256x128x64_0_1_2 : S256x128x1.BroadcastsInDim S256x128x64 (![0, 1, 2] : Fin 3 → Fin S256x128x64.rank)
  bcast_S_S256x128x64 : S_.BroadcastsInDim S256x128x64 (![] : Fin 0 → Fin S256x128x64.rank)
  shapeCasts_S256x128x64_S256x8192 : S256x128x64.ShapeCasts S256x8192
  bcast_S_S8192x8192 : S_.BroadcastsInDim S8192x8192 (![] : Fin 0 → Fin S8192x8192.rank)
  shapeCasts_S8192x8192_S8192x128x64 : S8192x8192.ShapeCasts S8192x128x64
  transposes_S128x8192_S8192x128_1_0 : S128x8192.Transposes [1, 0] S8192x128
  bcast_S8192x128_S8192x128x1_0_1 : S8192x128.BroadcastsInDim S8192x128x1 (![0, 1] : Fin 2 → Fin S8192x128x1.rank)
  bcast_S8192x128x1_S8192x128x64_0_1_2 : S8192x128x1.BroadcastsInDim S8192x128x64 (![0, 1, 2] : Fin 3 → Fin S8192x128x64.rank)
  shapeCasts_S8192x128x64_S8192x8192 : S8192x128x64.ShapeCasts S8192x8192
  transposes_S8192x8192_S8192x8192_1_0 : S8192x8192.Transposes [1, 0] S8192x8192
  shapeCasts_S256x8192_S64x4x8192 : S256x8192.ShapeCasts S64x4x8192
  dot_S256x8192_S8192x32_S256x32_1_0_0_1_n_n_wf : DotDims.WF S256x8192 S8192x32 S256x32 [1] [0] [0] [1] [] []
  dot_S256x32_S32x8192_S256x8192_1_0_0_1_n_n_wf : DotDims.WF S256x32 S32x8192 S256x8192 [1] [0] [0] [1] [] []
  dot_S256x8192_S8192x8192_S256x8192_1_0_0_1_n_n_wf : DotDims.WF S256x8192 S8192x8192 S256x8192 [1] [0] [0] [1] [] []

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S32x8192_S256x8192_1_0_0_1_n_n : DotDims S256x32 S32x8192 S256x8192 where
  lhsContracting := [1]
  rhsContracting := [0]
  lhsNonContracting := [0]
  rhsNonContracting := [1]
  lhsBatch := []
  rhsBatch := []
  wf := dot_S256x32_S32x8192_S256x8192_1_0_0_1_n_n_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.Spec.lean ====
/-
  The arithmetic of a matrix product against a weight matrix stored as small integer codes with one scale per group
  of 64 input columns, over the extended reals.

  For activations `X[m, k]` (256 rows, 8192 columns), recentred codes `Qf[o, k]` and scales `Ws[g, o]` (128 groups),
  the dequantized weight is `Qf[o, k] * Ws[k / 64, o]` and the product is `∑ k, X[m, k] * (Qf[o, k] * Ws[k / 64, o])`.
  A row of 8192 columns is 8 chunks of 1024 (`chunkIdx`), so the sum over the row is the sum over the chunks of the
  sums inside each chunk (`sum_chunks`), and an accumulator that starts at zero and adds the chunks' partial products
  one after the other ends at the whole product (`acc_seven`).  Only commutativity and associativity of the sum are
  used: nothing here needs the entries to be finite.

  A scale picked out of a group of 16 by a product with a 0/1 indicator row is the scale itself (`onehot_sum`):
  `a * 0 = 0` and `a * 1 = a` hold for every extended real.
-/
import Idealize.ShloMosaic.PureOps.Ideal
import Idealize.ShloMosaic.Lib.ValueIdx

noncomputable section

open scoped BigOperators

namespace Cert.QGemm

/-- Column `cc` of chunk `j`, when 8192 columns are cut into 8 chunks of 1024. -/
def chunkIdx (j : Fin 8) (cc : Fin 1024) : Fin 8192 := ⟨j.val * 1024 + cc.val, by have := j.isLt; have := cc.isLt; omega⟩

@[simp] theorem chunkIdx_val (j : Fin 8) (cc : Fin 1024) : (chunkIdx j cc).val = j.val * 1024 + cc.val := rfl

/-- A column is its chunk and its place inside the chunk. -/
def chunkEquiv : Fin 8 × Fin 1024 ≃ Fin 8192 where
  toFun p := chunkIdx p.1 p.2
  invFun k := (⟨k.val / 1024, by have := k.isLt; omega⟩, ⟨k.val % 1024, by omega⟩)
  left_inv p := by
    obtain ⟨j, cc⟩ := p
    have hj := j.isLt; have hc := cc.isLt
    refine Prod.ext (Fin.ext ?_) (Fin.ext ?_)
    · show (j.val * 1024 + cc.val) / 1024 = j.val; omega
    · show (j.val * 1024 + cc.val) % 1024 = cc.val; omega
  right_inv k := by
    apply Fin.ext
    show k.val / 1024 * 1024 + k.val % 1024 = k.val
    omega

/-- A sum over the 8192 columns is the sum over the chunks of the sums inside each chunk. -/
theorem sum_chunks {M : Type*} [AddCommMonoid M] (f : Fin 8192 → M) :
    ∑ k, f k = ∑ j : Fin 8, ∑ cc : Fin 1024, f (chunkIdx j cc) := by
  rw [← Equiv.sum_comp chunkEquiv f, Fintype.sum_prod_type]
  rfl

/-- The scale group of a column: 64 consecutive columns share a scale. -/
def grp (k : Fin 8192) : Fin 128 := ⟨k.val / 64, by have := k.isLt; omega⟩

@[simp] theorem grp_val (k : Fin 8192) : (grp k).val = k.val / 64 := rfl

/-- A sum of products with an indicator that is `1` at one place and `0` elsewhere picks that place's factor. -/
theorem onehot_sum {n : ℕ} (w e : Fin n → EReal) (g0 : Fin n) (h1 : e g0 = 1) (h0 : ∀ g, g ≠ g0 → e g = 0) :
    ∑ g, w g * e g = w g0 := by
  rw [Finset.sum_eq_single g0 (fun g _ hg => by rw [h0 g hg, mul_zero]) (fun h => absurd (Finset.mem_univ _) h), h1, mul_one]

section Product

variable (X : Fin 256 → Fin 8192 → EReal) (Qf : Fin 8192 → Fin 8192 → EReal) (Ws : Fin 128 → Fin 8192 → EReal)

/-- The dequantized weight: the recentred code times its group's scale. -/
def wdq (o k : Fin 8192) : EReal := Qf o k * Ws (grp k) o

/-- The whole product, row `m` of the activations against output column `o`. -/
def prod (m : Fin 256) (o : Fin 8192) : EReal := ∑ k, X m k * wdq Qf Ws o k

/-- The part of the product that chunk `j` of the columns contributes. -/
def part (j : Fin 8) (m : Fin 256) (o : Fin 8192) : EReal :=
  ∑ cc : Fin 1024, X m (chunkIdx j cc) * wdq Qf Ws o (chunkIdx j cc)

/-- The same with the chunk given as a natural number (zero past the last chunk). -/
def partN (n : ℕ) (m : Fin 256) (o : Fin 8192) : EReal := if h : n < 8 then part X Qf Ws ⟨n, h⟩ m o else 0

theorem partN_of_lt {n : ℕ} (h : n < 8) (m : Fin 256) (o : Fin 8192) : partN X Qf Ws n m o = part X Qf Ws ⟨n, h⟩ m o :=
  dif_pos h

/-- The accumulator after chunk `n`: it starts from zero at chunk 0 and adds each later chunk's part to what the
    chunk before left. -/
def acc : ℕ → Fin 256 → Fin 8192 → EReal
  | 0 => fun m o => 0 + partN X Qf Ws 0 m o
  | n + 1 => fun m o => acc n m o + partN X Qf Ws (n + 1) m o

theorem acc_zero (m : Fin 256) (o : Fin 8192) : acc X Qf Ws 0 m o = 0 + partN X Qf Ws 0 m o := rfl

theorem acc_succ (n : ℕ) (m : Fin 256) (o : Fin 8192) :
    acc X Qf Ws (n + 1) m o = acc X Qf Ws n m o + partN X Qf Ws (n + 1) m o := rfl

/-- The whole product is the sum of the eight chunks' parts. -/
theorem prod_eq_sum_parts (m : Fin 256) (o : Fin 8192) : prod X Qf Ws m o = ∑ j : Fin 8, part X Qf Ws j m o := by
  unfold prod part
  exact sum_chunks _

/-- After the last chunk the accumulator holds the whole product. -/
theorem acc_seven (m : Fin 256) (o : Fin 8192) : acc X Qf Ws 7 m o = prod X Qf Ws m o := by
  rw [prod_eq_sum_parts, Fin.sum_univ_eight]
  simp only [acc, zero_add, partN_of_lt X Qf Ws (show 0 < 8 by decide), partN_of_lt X Qf Ws (show 0 + 1 < 8 by decide),
    partN_of_lt X Qf Ws (show 0 + 1 + 1 < 8 by decide), partN_of_lt X Qf Ws (show 0 + 1 + 1 + 1 < 8 by decide),
    partN_of_lt X Qf Ws (show 0 + 1 + 1 + 1 + 1 < 8 by decide), partN_of_lt X Qf Ws (show 0 + 1 + 1 + 1 + 1 + 1 < 8 by decide),
    partN_of_lt X Qf Ws (show 0 + 1 + 1 + 1 + 1 + 1 + 1 < 8 by decide),
    partN_of_lt X Qf Ws (show 0 + 1 + 1 + 1 + 1 + 1 + 1 + 1 < 8 by decide)]
  rfl

end Product

end Cert.QGemm

end
-- ==== Proof.Target.lean ====
/-
  The result both programs are proved to compute, as one function of the arrays that enter the product.

  `Gm Xa La Q Wa Ba` is the 256 × 8192 matrix whose entry `(m, o)` is
  `(∑ k, Xa[m, k] * ((Q[o, k] - 8) * Wa[k / 64, o])) + La[m, o] + Ba[o]`: the quantized activations `Xa` against the
  dequantized weights (integer codes `Q` recentred by 8, one scale of `Wa` per group of 64 columns), plus the low-rank
  correction `La` and the bias `Ba`.  The integer code is read as the real number it denotes and `8` as the value of
  the float word `0x41000000`; both programs write that same word, so it is never evaluated.
-/
import proofs.«134164_j37452114821821_1_alg».proof.Proof.Spec

noncomputable section

open scoped BigOperators

namespace Cert.QGemm

open Idealize.ShloMosaic Idealize.ShloMosaic.ValueIdx

section Target

variable (Xa La : (⟨2, ![256, 8192]⟩ : Shape).Idx → EReal) (Q : (⟨2, ![8192, 8192]⟩ : Shape).Idx → BitVec 32)
  (Wa : (⟨2, ![128, 8192]⟩ : Shape).Idx → EReal) (Ba : (⟨1, ![8192]⟩ : Shape).Idx → EReal)

/-- The activations by row and column. -/
def xOf (m : Fin 256) (k : Fin 8192) : EReal := Xa (ix2 m k)

/-- The recentred weight code at output column `o`, input column `k`: the integer read exactly, less the value of the
    word `0x41000000` (eight). -/
def qOf (o k : Fin 8192) : EReal := (((Q (ix2 o k)).toInt : ℝ) : EReal) - Ideal.ofBits .f32 0x41000000#32

/-- The scale of group `g` for output column `o`. -/
def wOf (g : Fin 128) (o : Fin 8192) : EReal := Wa (ix2 g o)

/-- Entry `(m, o)` of the result: the product, then the correction, then the bias. -/
def out2 (m : Fin 256) (o : Fin 8192) : EReal :=
  prod (xOf Xa) (qOf Q) (wOf Wa) m o + La (ix2 m o) + Ba (ix1 o)

/-- The result as a 256 × 8192 array. -/
def Gm : (⟨2, ![256, 8192]⟩ : Shape).Idx → EReal := fun j =>
  out2 Xa La Q Wa Ba ⟨(j 0).val, (j 0).isLt⟩ ⟨(j 1).val, (j 1).isLt⟩

theorem Gm_ix2 (m : Fin 256) (o : Fin 8192) : Gm Xa La Q Wa Ba (ix2 m o) = out2 Xa La Q Wa Ba m o := rfl

end Target

end Cert.QGemm

end
-- ==== Proof.RefValue.lean ====
/-
  The reference's 256 × 8192 matrix, entry by entry.

  The reference forms the dequantized weight from the integer codes and the group scales (recentre by eight, view
  each row of 8192 columns as 128 groups of 64, multiply by the group's scale, view as a row again, transpose),
  multiplies the quantized activations into it, and adds the low-rank correction and the bias.  Reading every stage
  at an index gives, at row m and column o,
  (∑ k, X[m, k] * ((Q[o, k] - 8) * W[k / 64, o])) + L[m, o] + B[o],
  which is the target matrix.  The quantized activations X and the correction L are carried as they stand.

  The index arithmetic is that of the two views of a row: for o, k < 8192,
  (o * 8192 + k) / 8192 = o, (o * 8192 + k) / 64 % 128 = k / 64, (o * 8192 + k) % 64 = k % 64, and back,
  ((o * 128 + k / 64) * 64 + k % 64) / 8192 = o, ((o * 128 + k / 64) * 64 + k % 64) % 8192 = k.
-/
import proofs.«134164_j37452114821821_1_alg».proof.Proof.Gen.ReferenceIdeal.Read
import proofs.«134164_j37452114821821_1_alg».proof.Proof.Target
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The place of column k inside its group of 64. -/
def inGrp (k : Fin 8192) : Fin 64 := ⟨k.val % 64, Nat.mod_lt _ (by decide)⟩

/-! ## The composed indices, in coordinates -/

/-- The transpose reads entry (k, o) at (o, k). -/
theorem idx31 (o k : Fin 8192) : idx_main_v31 (ix2 k o) = ix2 o k :=
  funext fun a => Fin.ext (by match a with | ⟨0, _⟩ => rfl | ⟨1, _⟩ => rfl)

/-- A row of 8192 columns seen as 128 groups of 64: column k is place k % 64 of group k / 64. -/
theorem idx30 (o k : Fin 8192) : idx_main_v30 (ix2 o k) = ix3 o (Cert.QGemm.grp k) (inGrp k) :=
  funext fun a => Fin.ext (by
    have ho : o.val < 8192 := o.isLt
    have hk : k.val < 8192 := k.isLt
    match a with
    | ⟨0, _⟩ => show (o.val * 8192 + k.val) / 8192 = o.val; omega
    | ⟨1, _⟩ => show (o.val * 8192 + k.val) / 64 % 128 = k.val / 64; omega
    | ⟨2, _⟩ => show (o.val * 8192 + k.val) % 64 = k.val % 64; omega)

/-- And back: place k % 64 of group k / 64 in row o is column k of row o. -/
theorem idx25 (o k : Fin 8192) : idx_main_v25 (ix3 o (Cert.QGemm.grp k) (inGrp k)) = ix2 o k :=
  funext fun a => Fin.ext (by
    have ho : o.val < 8192 := o.isLt
    have hk : k.val < 8192 := k.isLt
    match a with
    | ⟨0, _⟩ => show ((o.val * 128 + k.val / 64) * 64 + k.val % 64) / 8192 = o.val; omega
    | ⟨1, _⟩ => show ((o.val * 128 + k.val / 64) * 64 + k.val % 64) % 8192 = k.val; omega)

/-- The scale is spread over the 64 places of its group. -/
theorem idx28 (o : Fin 8192) (g : Fin 128) (r : Fin 64) : idx_main_v28 (ix3 o g r) = ix3 o g (0 : Fin 1) :=
  funext fun a => Fin.ext (by match a with | ⟨0, _⟩ => rfl | ⟨1, _⟩ => rfl | ⟨2, _⟩ => rfl)

/-- The unit axis is dropped. -/
theorem idx27 (o : Fin 8192) (g : Fin 128) (z : Fin 1) : idx_main_v27 (ix3 o g z) = ix2 o g :=
  funext fun a => Fin.ext (by match a with | ⟨0, _⟩ => rfl | ⟨1, _⟩ => rfl)

/-- The scales are transposed: entry (o, g) is read at (g, o). -/
theorem idx26 (o : Fin 8192) (g : Fin 128) : idx_main_v26 (ix2 o g) = ix2 g o :=
  funext fun a => Fin.ext (by match a with | ⟨0, _⟩ => rfl | ⟨1, _⟩ => rfl)

/-- The left factor of the product is read at row m, column k. -/
theorem lidx32 (m : Fin 256) (o k : Fin 8192) : lidx_main_v32 (ix2 m o) k = ix2 m k :=
  funext fun a => Fin.ext (by match a with | ⟨0, _⟩ => rfl | ⟨1, _⟩ => rfl)

/-- The right factor of the product is read at row k, column o. -/
theorem ridx32 (m : Fin 256) (o k : Fin 8192) : ridx_main_v32 (ix2 m o) k = ix2 k o :=
  funext fun a => Fin.ext (by match a with | ⟨0, _⟩ => rfl | ⟨1, _⟩ => rfl)

/-- The bias is read at column o, whatever the row. -/
theorem idx3435 (m : Fin 256) (o : Fin 8192) : idx_main_v34 (idx_main_v35 (ix2 m o)) = ix1 o :=
  funext fun a => Fin.ext (by match a with | ⟨0, _⟩ => rfl)

/-! ## The stages, entry by entry -/

/-- The recentred code at (o, k): the integer read exactly, less eight. -/
theorem code_entry (x1 : (⟨S8192x8192, .i32⟩ : BufTy).Contents (Elt Ideal)) (o k : Fin 8192) :
    val_main_v24 (F := Ideal) x1 (ix2 o k) = Cert.QGemm.qOf x1 o k := by
  rw [val_main_v24_apply, val_main_v22_apply, val_main_v23_apply, val_main_cst_4_apply]
  rfl

/-- The scale spread over the groups: at (o, g, r) it is the scale of group g for output column o. -/
theorem scale_entry (x2 : (⟨S128x8192, .f32⟩ : BufTy).Contents (Elt Ideal)) (o : Fin 8192) (g : Fin 128) (r : Fin 64) :
    val_main_v28 (F := Ideal) x2 (ix3 o g r) = Cert.QGemm.wOf x2 g o := by
  rw [val_main_v28_apply, idx28, val_main_v27_apply, idx27, val_main_v26_apply, idx26]
  rfl

/-- The dequantized weight, transposed: entry (k, o) is the recentred code at (o, k) times the scale of k's group
    for output column o. -/
theorem weight_entry (x1 : (⟨S8192x8192, .i32⟩ : BufTy).Contents (Elt Ideal))
    (x2 : (⟨S128x8192, .f32⟩ : BufTy).Contents (Elt Ideal)) (o k : Fin 8192) :
    val_main_v31 (F := Ideal) x1 x2 (ix2 k o)
      = Cert.QGemm.wdq (Cert.QGemm.qOf x1) (Cert.QGemm.wOf x2) o k := by
  rw [val_main_v31_apply, idx31, val_main_v30_apply, idx30, val_main_v29_apply, val_main_v25_apply, idx25,
    code_entry, scale_entry]
  rfl

/-- The bias spread over the rows: entry (m, o) is the bias of column o. -/
theorem bias_entry (x6 : (⟨S8192, .f32⟩ : BufTy).Contents (Elt Ideal)) (m : Fin 256) (o : Fin 8192) :
    val_main_v35 (F := Ideal) x6 (ix2 m o) = x6 (ix1 o) := by
  rw [val_main_v35_apply, val_main_v34_apply, idx3435]

/-! ## The matrix -/

theorem result_eq (x0 : (⟨S64x4x8192, .f32⟩ : BufTy).Contents (Elt Ideal)) (x1 : (⟨S8192x8192, .i32⟩ : BufTy).Contents (Elt Ideal))
    (x2 : (⟨S128x8192, .f32⟩ : BufTy).Contents (Elt Ideal)) (x3 : (⟨S8192, .f32⟩ : BufTy).Contents (Elt Ideal))
    (x4 x5 : (⟨S8192x32, .f32⟩ : BufTy).Contents (Elt Ideal)) (x6 : (⟨S8192, .f32⟩ : BufTy).Contents (Elt Ideal)) :
    val_main_v36 (F := Ideal) x0 x1 x2 x3 x4 x5 x6
      = Cert.QGemm.Gm (val_main_v21 (F := Ideal) x0 x3) (val_main_v3 (F := Ideal) x0 x4 x5) x1 x2 x6 := by
  funext j
  obtain ⟨m, o, rfl⟩ : ∃ (m : Fin 256) (o : Fin 8192), j = ix2 m o := ⟨j 0, j 1, eq_ix2 j⟩
  rw [Cert.QGemm.Gm_ix2, val_main_v36_apply, val_main_v33_apply, val_main_v32_apply, bias_entry]
  generalize val_main_v21 (F := Ideal) x0 x3 = X
  generalize val_main_v3 (F := Ideal) x0 x4 x5 = L
  unfold Cert.QGemm.out2 Cert.QGemm.prod
  have hsum : (∑ k : Fin 8192, X (lidx_main_v32 (ix2 m o) k) * val_main_v31 (F := Ideal) x1 x2 (ridx_main_v32 (ix2 m o) k))
      = ∑ k : Fin 8192, Cert.QGemm.xOf X m k * Cert.QGemm.wdq (Cert.QGemm.qOf x1) (Cert.QGemm.wOf x2) o k :=
    Finset.sum_congr rfl fun k _ => by
      rw [lidx32, ridx32, weight_entry]
      rfl
  rw [hsum]
  rfl

end Cert.ReferenceIdeal.RefValue

end
-- ==== Proof.Pieces.lean ====
/-
  What one run of the kernel body leaves behind, case by case, as values.

  The body has three cases by the position `c` along the contracted grid axis: at `c = 0` it zeroes the accumulator
  and adds the first slab's contribution; at `0 < c < 7` it adds a slab's contribution to what the point before left;
  at `c = 7` it does the same and then stores accumulator + correction + bias into the output block.  In every case
  the accumulator ends at the accumulating payload of the slabs the loads read (rows `16 c ..` and columns
  `1024 o ..` of the scales, rows `16 c ..` and columns `1024 c ..` of the expansion matrix, columns `1024 c ..` of
  the activations, the whole code block), over zero in the first case and over the previous contents otherwise.
-/
import proofs.«134164_j37452114821821_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-- The slab of scales a point reads: 16 rows from its group offset, 1024 columns from its output offset. -/
abbrev wsl (i : grid0.Coords) (x1 : Vec F S128x8192 .f32) : Vec F S16x1024 .f32 :=
  View.ld x1 (Rect.unit (k0_off1 i) S16x1024.size (Facts₀.k0_off1_inb i))
/-- The slab of the expansion matrix a point reads. -/
abbrev esl (i : grid0.Coords) (x2 : Vec F S128x8192 .bf16) : Vec F S16x1024 .bf16 :=
  View.ld x2 (Rect.unit (k0_off2 i) S16x1024.size (Facts₀.k0_off2_inb i))
/-- The slab of activations a point reads. -/
abbrev xsl (i : grid0.Coords) (x3 : Vec F S256x8192 .bf16) : Vec F S256x1024 .bf16 :=
  View.ld x3 (Rect.unit (k0_off3 i) S256x1024.size (Facts₀.k0_off3_inb i))

/-- A middle point leaves the accumulator at its previous contents plus the slab's contribution. -/
theorem scratch_B (c : Dev nD) (i : grid0.Coords) (arg2 : Memref sig .tc .vmem S1024x1024 .i32) (harg2 : arg2.IsWhole) (arg3 : Memref sig .tc .vmem S128x8192 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (hc0 : ¬cond0_0 i) (hc1 : ¬cond0_1 i)
    (x0 : Vec F S1024x1024 .i32) (x1 : Vec F S128x8192 .f32) (x2 : Vec F S128x8192 .bf16) (x3 : Vec F S256x8192 .bf16) (x4 : Vec F S256x1024 .f32) (x5 : Vec F S1x1024 .f32) (xs0 : Vec F S256x1024 .f32) :
    sout0_B_0 c i arg2 harg2 arg3 harg3 arg4 harg4 arg5 harg5 arg6 harg6 arg7 harg7 arg8 harg8 arg9 harg9 hc0 hc1 x0 x1 x2 x3 x4 x5 xs0 = k0_pay2 (wsl i x1) (esl i x2) (xsl i x3) x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  rw [View.canon_unit_zero hz]
  simp only [View.readAt_eq_ld, harg2.read_unread, harg3.read_unread, harg4.read_unread, harg5.read_unread, harg9.read_unread,
    View.ld_unit_zero (S := S1024x1024) hz, View.ld_unit_zero (S := S256x1024) hz]

/-- The last point of a row of the grid leaves the accumulator likewise, -/
theorem scratch_C (c : Dev nD) (i : grid0.Coords) (arg2 : Memref sig .tc .vmem S1024x1024 .i32) (harg2 : arg2.IsWhole) (arg3 : Memref sig .tc .vmem S128x8192 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (hc0 : ¬cond0_0 i) (hc1 : cond0_1 i)
    (x0 : Vec F S1024x1024 .i32) (x1 : Vec F S128x8192 .f32) (x2 : Vec F S128x8192 .bf16) (x3 : Vec F S256x8192 .bf16) (x4 : Vec F S256x1024 .f32) (x5 : Vec F S1x1024 .f32) (xs0 : Vec F S256x1024 .f32) :
    sout0_C_0 c i arg2 harg2 arg3 harg3 arg4 harg4 arg5 harg5 arg6 harg6 arg7 harg7 arg8 harg8 arg9 harg9 hc0 hc1 x0 x1 x2 x3 x4 x5 xs0 = k0_pay2 (wsl i x1) (esl i x2) (xsl i x3) x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_run_names
  rw [View.canon_unit_zero hz]
  simp only [View.readAt_eq_ld, harg2.read_unread, harg3.read_unread, harg4.read_unread, harg5.read_unread, harg9.read_unread,
    View.ld_unit_zero (S := S1024x1024) hz, View.ld_unit_zero (S := S256x1024) hz]

/-- and the output block at that accumulator plus the correction block plus the bias row. -/
theorem out_C (c : Dev nD) (i : grid0.Coords) (arg2 : Memref sig .tc .vmem S1024x1024 .i32) (harg2 : arg2.IsWhole) (arg3 : Memref sig .tc .vmem S128x8192 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (hc0 : ¬cond0_0 i) (hc1 : cond0_1 i)
    (x0 : Vec F S1024x1024 .i32) (x1 : Vec F S128x8192 .f32) (x2 : Vec F S128x8192 .bf16) (x3 : Vec F S256x8192 .bf16) (x4 : Vec F S256x1024 .f32) (x5 : Vec F S1x1024 .f32) (xs0 : Vec F S256x1024 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 (wsl i x1) (esl i x2) (xsl i x3) x0 xs0) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_run_names
  rw [View.canon_unit_zero hz]
  simp only [View.readAt_eq_ld, harg2.read_unread, harg3.read_unread, harg4.read_unread, harg5.read_unread, harg6.read_unread, harg7.read_unread, harg9.read_unread,
    View.ld_unit_zero (S := S1024x1024) hz, View.ld_unit_zero (S := S256x1024) hz, View.ld_unit_zero (S := S1x1024) hz,
    View.readCov_unit_zero (S := S256x1024) _ hz]

/-- The first point of a row of the grid zeroes the accumulator, reads the zeros back and adds the first slab's
    contribution. -/
theorem scratch_A (c : Dev nD) (i : grid0.Coords) (arg2 : Memref sig .tc .vmem S1024x1024 .i32) (harg2 : arg2.IsWhole) (arg3 : Memref sig .tc .vmem S128x8192 .f32) (harg3 : arg3.IsWhole) (arg4 : Memref sig .tc .vmem S128x8192 .bf16) (harg4 : arg4.IsWhole) (arg5 : Memref sig .tc .vmem S256x8192 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (hc0 : cond0_0 i) (hc1 : ¬cond0_1 i)
    (x0 : Vec F S1024x1024 .i32) (x1 : Vec F S128x8192 .f32) (x2 : Vec F S128x8192 .bf16) (x3 : Vec F S256x8192 .bf16) (x4 : Vec F S256x1024 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = k0_pay2 (wsl i x1) (esl i x2) (xsl i x3) x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_run_names
  rw [View.canon_cons_unit_zero (S := S256x1024) hz]
  simp only [View.readAt_eq_ld, harg2.read_unread, harg3.read_unread, harg4.read_unread, harg5.read_unread,
    View.ld_unit_zero (S := S1024x1024) hz, View.ld_unit_zero (S := S256x1024) hz, View.readCov_unit_zero (S := S256x1024) _ hz]

end Cert.KernelIdeal.Pieces

end
-- ==== Proof.Blocks.lean ====
/-
  Where each block and each slab sits in its array.

  Grid point `t` of the 8 × 8 grid has output position `o = t / 8` and contraction position `c = t % 8`.  There the
  code block is rows `1024 o ..`, columns `1024 c ..` of the codes; the scales, the expansion matrix and the
  activations are staged whole, and the body reads rows `16 c ..`, columns `1024 o ..` of the scales, rows
  `16 c ..`, columns `1024 c ..` of the expansion matrix and columns `1024 c ..` of the activations; the correction
  block is columns `1024 o ..` of the correction, and the bias block columns `1024 o ..` of the bias row.
-/
import proofs.«134164_j37452114821821_1_alg».proof.Proof.Pieces
import proofs.«134164_j37452114821821_1_alg».proof.Proof.Spec

set_option maxRecDepth 16384

noncomputable section

namespace Cert.KernelIdeal.Blocks

open Cert.KernelIdeal Cert.KernelIdeal.Gen Cert.KernelIdeal.Pieces Cert.QGemm
open Idealize.ShloMosaic Idealize.ShloMosaic.TcCoe Idealize.ShloMosaic.ValueIdx
open Idealize.SL Idealize.SL.Sem

variable (m : (ℓ : Loc nD τ sig) → Buf (Elt Ideal) ℓ)

/-! ### The arrays as the region finds them, and the blocks, at their literal types -/

abbrev qarr (c : Dev nD) : IVec S8192x8192 32 := V m c main_arg1
abbrev warr (c : Dev nD) : FVec Ideal S128x8192 .f32 := V m c main_arg2
abbrev earr (c : Dev nD) : FVec Ideal S128x8192 .bf16 := V m c main_v31
abbrev xarr (c : Dev nD) : FVec Ideal S256x8192 .bf16 := V m c main_v22
abbrev larr (c : Dev nD) : FVec Ideal S256x8192 .f32 := V m c main_v3
abbrev barr (c : Dev nD) : FVec Ideal S1x8192 .f32 := V m c main_v32

abbrev qblk (c : Dev nD) (t : Fin cfg0.N) : IVec S1024x1024 32 := iblk m c 0 t
abbrev wblk (c : Dev nD) (t : Fin cfg0.N) : FVec Ideal S128x8192 .f32 := iblk m c 1 t
abbrev eblk (c : Dev nD) (t : Fin cfg0.N) : FVec Ideal S128x8192 .bf16 := iblk m c 2 t
abbrev xblk (c : Dev nD) (t : Fin cfg0.N) : FVec Ideal S256x8192 .bf16 := iblk m c 3 t
abbrev lblk (c : Dev nD) (t : Fin cfg0.N) : FVec Ideal S256x1024 .f32 := iblk m c 4 t
abbrev bblk (c : Dev nD) (t : Fin cfg0.N) : FVec Ideal S1x1024 .f32 := iblk m c 5 t

/-! ### The grid point's two positions -/

theorem N64 : cfg0.N = 64 := N_0

/-- The output position of a grid point. -/
def oOf (t : Fin cfg0.N) : Fin 8 := ⟨t.val / 8, by have h : t.val < 64 := lt_of_lt_of_eq t.isLt N64; omega⟩
/-- The contraction position of a grid point. -/
def jOf (t : Fin cfg0.N) : Fin 8 := ⟨t.val % 8, Nat.mod_lt _ (by decide)⟩

@[simp] theorem oOf_val (t : Fin cfg0.N) : (oOf t).val = t.val / 8 := rfl
@[simp] theorem jOf_val (t : Fin cfg0.N) : (jOf t).val = t.val % 8 := rfl

/-- Row `g` of the 16 scale groups that contraction position `j` covers. -/
def gidx (j : Fin 8) (g : Fin 16) : Fin 128 := ⟨j.val * 16 + g.val, by have := j.isLt; have := g.isLt; omega⟩

@[simp] theorem gidx_val (j : Fin 8) (g : Fin 16) : (gidx j g).val = j.val * 16 + g.val := rfl

/-- The grid coordinates of point `t` are its two positions (decided over the 64 points). -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The windows' block indices at point `t` (decided over the 64 points). -/
theorem widx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem widx1 : ∀ t : Fin cfg0.N, win0_1.index t 0 = 0 ∧ win0_1.index t 1 = 0 :=
  (by decide +kernel : ∀ t : Fin grid0.N, win0_1.index t 0 = 0 ∧ win0_1.index t 1 = 0)
theorem widx2 : ∀ t : Fin cfg0.N, win0_2.index t 0 = 0 ∧ win0_2.index t 1 = 0 :=
  (by decide +kernel : ∀ t : Fin grid0.N, win0_2.index t 0 = 0 ∧ win0_2.index t 1 = 0)
theorem widx3 : ∀ t : Fin cfg0.N, win0_3.index t 0 = 0 ∧ win0_3.index t 1 = 0 :=
  (by decide +kernel : ∀ t : Fin grid0.N, win0_3.index t 0 = 0 ∧ win0_3.index t 1 = 0)
theorem widx4 : ∀ t : Fin cfg0.N, win0_4.index t 0 = 0 ∧ win0_4.index t 1 = t.val / 8 :=
  (by decide +kernel : ∀ t : Fin grid0.N, win0_4.index t 0 = 0 ∧ win0_4.index t 1 = t.val / 8)
theorem widx5 : ∀ t : Fin cfg0.N, win0_5.index t 0 = 0 ∧ win0_5.index t 1 = t.val / 8 :=
  (by decide +kernel : ∀ t : Fin grid0.N, win0_5.index t 0 = 0 ∧ win0_5.index t 1 = t.val / 8)
theorem widx6 : ∀ t : Fin cfg0.N, win0_6.index t 0 = 0 ∧ win0_6.index t 1 = t.val / 8 :=
  (by decide +kernel : ∀ t : Fin grid0.N, win0_6.index t 0 = 0 ∧ win0_6.index t 1 = t.val / 8)

/-! ### Blocks and slabs at an entry -/

/-- The code block at `(a, b)` is the code at row `1024 o + a`, column `1024 c + b`. -/
theorem qblk_apply (c : Dev nD) (t : Fin cfg0.N) (a b : Fin 1024) :
    qblk m c t (ix2 a b) = qarr m c (ix2 (chunkIdx (oOf t) a) (chunkIdx (jOf t) b)) := by
  show iblk m c 0 t (ix2 a b) = V m c main_arg1 _
  unfold iblk
  rw [View.read_apply]
  show V m c main_arg1 _ = V m c main_arg1 _
  refine congrArg (V m c main_arg1) (funext fun ax => Fin.ext ?_)
  have ha := a.isLt; have hb := b.isLt
  match ax with
  | ⟨0, _⟩ => show win0_0.index t 0 * 1024 + 1 * a.val = t.val / 8 * 1024 + a.val; rw [(widx0 t).1]; omega
  | ⟨1, _⟩ => show win0_0.index t 1 * 1024 + 1 * b.val = t.val % 8 * 1024 + b.val; rw [(widx0 t).2]; omega

/-- The staged scales are the scales. -/
theorem wblk_apply (c : Dev nD) (t : Fin cfg0.N) (a : Fin 128) (b : Fin 8192) :
    wblk m c t (ix2 a b) = warr m c (ix2 a b) := by
  show iblk m c 1 t (ix2 a b) = V m c main_arg2 _
  unfold iblk
  rw [View.read_apply]
  show V m c main_arg2 _ = V m c main_arg2 _
  refine congrArg (V m c main_arg2) (funext fun ax => Fin.ext ?_)
  match ax with
  | ⟨0, _⟩ => show win0_1.index t 0 * 128 + 1 * a.val = a.val; rw [(widx1 t).1]; omega
  | ⟨1, _⟩ => show win0_1.index t 1 * 8192 + 1 * b.val = b.val; rw [(widx1 t).2]; omega

/-- The staged expansion matrix is the expansion matrix. -/
theorem eblk_apply (c : Dev nD) (t : Fin cfg0.N) (a : Fin 128) (b : Fin 8192) :
    eblk m c t (ix2 a b) = earr m c (ix2 a b) := by
  show iblk m c 2 t (ix2 a b) = V m c main_v31 _
  unfold iblk
  rw [View.read_apply]
  show V m c main_v31 _ = V m c main_v31 _
  refine congrArg (V m c main_v31) (funext fun ax => Fin.ext ?_)
  match ax with
  | ⟨0, _⟩ => show win0_2.index t 0 * 128 + 1 * a.val = a.val; rw [(widx2 t).1]; omega
  | ⟨1, _⟩ => show win0_2.index t 1 * 8192 + 1 * b.val = b.val; rw [(widx2 t).2]; omega

/-- The staged activations are the activations. -/
theorem xblk_apply (c : Dev nD) (t : Fin cfg0.N) (a : Fin 256) (b : Fin 8192) :
    xblk m c t (ix2 a b) = xarr m c (ix2 a b) := by
  show iblk m c 3 t (ix2 a b) = V m c main_v22 _
  unfold iblk
  rw [View.read_apply]
  show V m c main_v22 _ = V m c main_v22 _
  refine congrArg (V m c main_v22) (funext fun ax => Fin.ext ?_)
  match ax with
  | ⟨0, _⟩ => show win0_3.index t 0 * 256 + 1 * a.val = a.val; rw [(widx3 t).1]; omega
  | ⟨1, _⟩ => show win0_3.index t 1 * 8192 + 1 * b.val = b.val; rw [(widx3 t).2]; omega

/-- The correction block at `(a, b)` is the correction at row `a`, column `1024 o + b`. -/
theorem lblk_apply (c : Dev nD) (t : Fin cfg0.N) (a : Fin 256) (b : Fin 1024) :
    lblk m c t (ix2 a b) = larr m c (ix2 a (chunkIdx (oOf t) b)) := by
  show iblk m c 4 t (ix2 a b) = V m c main_v3 _
  unfold iblk
  rw [View.read_apply]
  show V m c main_v3 _ = V m c main_v3 _
  refine congrArg (V m c main_v3) (funext fun ax => Fin.ext ?_)
  match ax with
  | ⟨0, _⟩ => show win0_4.index t 0 * 256 + 1 * a.val = a.val; rw [(widx4 t).1]; omega
  | ⟨1, _⟩ => show win0_4.index t 1 * 1024 + 1 * b.val = t.val / 8 * 1024 + b.val; rw [(widx4 t).2]; omega

/-- The bias block at column `b` is the bias row at column `1024 o + b`. -/
theorem bblk_apply (c : Dev nD) (t : Fin cfg0.N) (b : Fin 1024) :
    bblk m c t (ix2 (0 : Fin 1) b) = barr m c (ix2 (0 : Fin 1) (chunkIdx (oOf t) b)) := by
  show iblk m c 5 t (ix2 (0 : Fin 1) b) = V m c main_v32 _
  unfold iblk
  rw [View.read_apply]
  show V m c main_v32 _ = V m c main_v32 _
  refine congrArg (V m c main_v32) (funext fun ax => Fin.ext ?_)
  match ax with
  | ⟨0, _⟩ => show win0_5.index t 0 * 1 + 1 * 0 = 0; rw [(widx5 t).1]
  | ⟨1, _⟩ => show win0_5.index t 1 * 1024 + 1 * b.val = t.val / 8 * 1024 + b.val; rw [(widx5 t).2]; omega

/-- The scale slab at `(g, q)`: group `16 c + g`, output column `1024 o + q`. -/
theorem wslab_apply (c : Dev nD) (t : Fin cfg0.N) (g : Fin 16) (q : Fin 1024) :
    wsl (F := Ideal) (grid0.coords t) (wblk m c t) (ix2 g q) = warr m c (ix2 (gidx (jOf t) g) (chunkIdx (oOf t) q)) := by
  have hg := g.isLt; have hq := q.isLt
  have ht : t.val < 64 := lt_of_lt_of_eq t.isLt N64
  show wblk m c t ((Rect.unit (s := S128x8192) (k0_off1 (grid0.coords t)) S16x1024.size (Facts₀.k0_off1_inb (grid0.coords t))).idx (ix2 g q)) = _
  obtain ⟨a, b, hab⟩ : ∃ (a : Fin 128) (b : Fin 8192), (Rect.unit (s := S128x8192) (k0_off1 (grid0.coords t)) S16x1024.size (Facts₀.k0_off1_inb (grid0.coords t))).idx (ix2 g q) = ix2 a b ∧ a = gidx (jOf t) g ∧ b = chunkIdx (oOf t) q := by
    refine ⟨gidx (jOf t) g, chunkIdx (oOf t) q, funext fun ax => Fin.ext ?_, rfl, rfl⟩
    match ax with
    | ⟨0, _⟩ =>
      show k0_off1 (grid0.coords t) 0 + 1 * g.val = t.val % 8 * 16 + g.val
      rw [k0_off1_eq]; show 16 * ((grid0.coords t) 1).val + 1 * g.val = _; rw [(coords_val t).2]; omega
    | ⟨1, _⟩ =>
      show k0_off1 (grid0.coords t) 1 + 1 * q.val = t.val / 8 * 1024 + q.val
      rw [k0_off1_eq]; show 1024 * ((grid0.coords t) 0).val + 1 * q.val = _; rw [(coords_val t).1]; omega
  rw [hab.1, wblk_apply, hab.2.1, hab.2.2]

/-- The expansion slab at `(g, k)`: group `16 c + g`, input column `1024 c + k`. -/
theorem eslab_apply (c : Dev nD) (t : Fin cfg0.N) (g : Fin 16) (k : Fin 1024) :
    esl (F := Ideal) (grid0.coords t) (eblk m c t) (ix2 g k) = earr m c (ix2 (gidx (jOf t) g) (chunkIdx (jOf t) k)) := by
  have hg := g.isLt; have hk := k.isLt
  show eblk m c t ((Rect.unit (s := S128x8192) (k0_off2 (grid0.coords t)) S16x1024.size (Facts₀.k0_off2_inb (grid0.coords t))).idx (ix2 g k)) = _
  obtain ⟨a, b, hab⟩ : ∃ (a : Fin 128) (b : Fin 8192), (Rect.unit (s := S128x8192) (k0_off2 (grid0.coords t)) S16x1024.size (Facts₀.k0_off2_inb (grid0.coords t))).idx (ix2 g k) = ix2 a b ∧ a = gidx (jOf t) g ∧ b = chunkIdx (jOf t) k := by
    refine ⟨gidx (jOf t) g, chunkIdx (jOf t) k, funext fun ax => Fin.ext ?_, rfl, rfl⟩
    match ax with
    | ⟨0, _⟩ =>
      show k0_off2 (grid0.coords t) 0 + 1 * g.val = t.val % 8 * 16 + g.val
      rw [k0_off2_eq]; show 16 * ((grid0.coords t) 1).val + 1 * g.val = _; rw [(coords_val t).2]; omega
    | ⟨1, _⟩ =>
      show k0_off2 (grid0.coords t) 1 + 1 * k.val = t.val % 8 * 1024 + k.val
      rw [k0_off2_eq]; show 1024 * ((grid0.coords t) 1).val + 1 * k.val = _; rw [(coords_val t).2]; omega
  rw [hab.1, eblk_apply, hab.2.1, hab.2.2]

/-- The activation slab at `(p, k)`: row `p`, input column `1024 c + k`. -/
theorem xslab_apply (c : Dev nD) (t : Fin cfg0.N) (p : Fin 256) (k : Fin 1024) :
    xsl (F := Ideal) (grid0.coords t) (xblk m c t) (ix2 p k) = xarr m c (ix2 p (chunkIdx (jOf t) k)) := by
  have hp := p.isLt; have hk := k.isLt
  show xblk m c t ((Rect.unit (s := S256x8192) (k0_off3 (grid0.coords t)) S256x1024.size (Facts₀.k0_off3_inb (grid0.coords t))).idx (ix2 p k)) = _
  obtain ⟨a, b, hab⟩ : ∃ (a : Fin 256) (b : Fin 8192), (Rect.unit (s := S256x8192) (k0_off3 (grid0.coords t)) S256x1024.size (Facts₀.k0_off3_inb (grid0.coords t))).idx (ix2 p k) = ix2 a b ∧ a = p ∧ b = chunkIdx (jOf t) k := by
    refine ⟨p, chunkIdx (jOf t) k, funext fun ax => Fin.ext ?_, rfl, rfl⟩
    match ax with
    | ⟨0, _⟩ =>
      show k0_off3 (grid0.coords t) 0 + 1 * p.val = p.val
      rw [k0_off3_eq]; show 0 + 1 * p.val = _; omega
    | ⟨1, _⟩ =>
      show k0_off3 (grid0.coords t) 1 + 1 * k.val = t.val % 8 * 1024 + k.val
      rw [k0_off3_eq]; show 1024 * ((grid0.coords t) 1).val + 1 * k.val = _; rw [(coords_val t).2]; omega
  rw [hab.1, xblk_apply, hab.2.1, hab.2.2]

end Cert.KernelIdeal.Blocks

end
-- ==== Proof.Payload.lean ====
/-
  The kernel body's arithmetic, read at one entry over the extended reals.

  At a grid point the body holds a 16 × 1024 slab `ws` of scales (16 groups, 1024 output columns), the matching
  16 × 1024 slab `e` of the group-expansion matrix, a 256 × 1024 slab `x` of activations, a 1024 × 1024 block `q` of
  integer codes and the accumulator `acc`.  It forms `s[o, k] = ∑ g, ws[g, o] * e[g, k]` (the scale of column `k`
  spread over its group), the dequantized block `w[o, k] = (q[o, k] - 8) * s[o, k]`, and adds
  `∑ k, x[m, k] * w[o, k]` to `acc[m, o]`.  A change of float format is the identity over the extended reals, and a
  matrix product into a zero accumulator is the plain sum of products.  The closing store adds the low-rank
  correction and the bias row to the accumulator.
-/
import proofs.«134164_j37452114821821_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ### The two products' operand indices, axis by axis -/

theorem lhsE_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhsE_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhsE_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhsE_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

theorem lhsM_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhsM_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhsM_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhsM_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-! ### The scale spread over its group -/

/-- The product of the transposed scale slab with the expansion slab, at output column `o` and input column `k` of
    the block: the sum over the 16 groups of the scale times the indicator. -/
theorem expand_apply (l : FVec Ideal S1024x16 .bf16) (r : FVec Ideal S16x1024 .bf16) (o k : Fin 1024) :
    matmul dot_S1024x16_S16x1024_S1024x1024_1_0_0_1_n_n none l r (constant S1024x1024 .f32 0x00000000#32) (ix2 o k)
      = ∑ g : Fin 16, l (ix2 o g) * r (ix2 g k) := by
  simp only [matmul]
  rw [Ideal.matmul_constant_zero_apply, ← Equiv.sum_comp (contrEquiv1 dot_S1024x16_S16x1024_S1024x1024_1_0_0_1_n_n 16 rfl rfl).symm]
  refine Finset.sum_congr rfl fun g _ => ?_
  have hk := contrEquiv1_symm_val dot_S1024x16_S16x1024_S1024x1024_1_0_0_1_n_n 16 rfl rfl g
  have el : dot_S1024x16_S16x1024_S1024x1024_1_0_0_1_n_n.lhsIdx (ix2 o k) ((contrEquiv1 dot_S1024x16_S16x1024_S1024x1024_1_0_0_1_n_n 16 rfl rfl).symm g) = ix2 o g := funext fun a => Fin.ext (by
    match a with
    | ⟨0, _⟩ => exact lhsE_0 _ _
    | ⟨1, _⟩ => exact (lhsE_1 _ _).trans hk)
  have er : dot_S1024x16_S16x1024_S1024x1024_1_0_0_1_n_n.rhsIdx (ix2 o k) ((contrEquiv1 dot_S1024x16_S16x1024_S1024x1024_1_0_0_1_n_n 16 rfl rfl).symm g) = ix2 g k := funext fun a => Fin.ext (by
    match a with
    | ⟨0, _⟩ => exact (rhsE_0 _ _).trans hk
    | ⟨1, _⟩ => exact rhsE_1 _ _)
  rw [el, er]

/-- The product of the activation slab with the dequantized block, contracted over the block's input columns. -/
theorem gemm_apply (l : FVec Ideal S256x1024 .bf16) (r : FVec Ideal S1024x1024 .bf16) (m : Fin 256) (o : Fin 1024) :
    matmul dot_S256x1024_S1024x1024_S256x1024_1_1_0_0_n_n none l r (constant S256x1024 .f32 0x00000000#32) (ix2 m o)
      = ∑ k : Fin 1024, l (ix2 m k) * r (ix2 o k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 m o) ((contrEquiv1 dot_S256x1024_S1024x1024_S256x1024_1_1_0_0_n_n 1024 rfl rfl).symm k) = ix2 m k := funext fun a => Fin.ext (by
    match a with
    | ⟨0, _⟩ => exact lhsM_0 _ _
    | ⟨1, _⟩ => exact (lhsM_1 _ _).trans hk)
  have er : dot_S256x1024_S1024x1024_S256x1024_1_1_0_0_n_n.rhsIdx (ix2 m o) ((contrEquiv1 dot_S256x1024_S1024x1024_S256x1024_1_1_0_0_n_n 1024 rfl rfl).symm k) = ix2 o k := funext fun a => Fin.ext (by
    match a with
    | ⟨0, _⟩ => exact rhsM_0 _ _
    | ⟨1, _⟩ => exact (rhsM_1 _ _).trans hk)
  rw [el, er]

/-! ### The accumulating store's payload and the closing store's payload at an entry -/

/-- The accumulating store at `(m, o)`: the accumulator plus the slab's contribution. -/
theorem pay2_apply (ws : FVec Ideal S16x1024 .f32) (e : FVec Ideal S16x1024 .bf16) (x : FVec Ideal S256x1024 .bf16)
    (q : IVec S1024x1024 32) (acc : FVec Ideal S256x1024 .f32) (m : Fin 256) (o : Fin 1024) :
    k0_pay2 (F := Ideal) ws e x q acc (ix2 m o)
      = acc (ix2 m o) + ∑ k : Fin 1024, x (ix2 m k)
          * (((((q (ix2 o k)).toInt : ℝ) : EReal) - Ideal.ofBits .f32 0x41000000#32) * ∑ g : Fin 16, ws (ix2 g o) * e (ix2 g k)) := by
  unfold k0_pay2
  simp only [shapeCast_self]
  rw [addf_apply, gemm_apply]
  refine congrArg (acc (ix2 m o) + ·) (Finset.sum_congr rfl fun k _ => ?_)
  refine congrArg (x (ix2 m k) * ·) ?_
  rw [truncf_apply, mulf_apply, expand_apply]
  refine congrArg₂ (· * ·) rfl (Finset.sum_congr rfl fun g _ => ?_)
  rw [truncf_apply, transpose_ix2_apply]

/-- The reset store's payload is zero everywhere. -/
theorem pay1_apply (j : S256x1024.Idx) : k0_pay1 (F := Ideal) j = 0 := by
  unfold k0_pay1
  simp only [shapeCast_self]
  exact Ideal.ofBits_zero_f32

/-- The closing store at `(m, o)`: accumulator, plus the correction, plus the bias row. -/
theorem pay3_apply (acc lo : FVec Ideal S256x1024 .f32) (b : FVec Ideal S1x1024 .f32) (m : Fin 256) (o : Fin 1024) :
    k0_pay3 (F := Ideal) acc lo b (ix2 m o) = acc (ix2 m o) + lo (ix2 m o) + b (ix2 (0 : Fin 1) o) := by
  unfold k0_pay3
  simp only [shapeCast_self]
  rw [addf_apply, addf_apply, broadcastTo_1b_ab_apply]

end Cert.KernelIdeal.Payload

end
-- ==== Proof.Accum.lean ====
/-
  The accumulator across the grid.

  At output position `o` the eight points `c = 0 .. 7` run one after the other; the accumulator is zeroed at `c = 0`
  and each point adds its slab's contribution
  `∑ k < 1024, X[p, 1024 c + k] * ((Q[o', 1024 c + k] - 8) * ∑ g < 16, W[16 c + g, o'] * E[16 c + g, 1024 c + k])`
  at row `p` and output column `o' = 1024 o + q`.  So after point `t` the accumulator holds the left-to-right sum
  `((0 + part 0) + part 1) + … + part (t % 8)` for output position `t / 8` (by induction on the point), and the block
  the last point of a row writes back is that sum after eight parts, plus the correction, plus the bias row.
-/
import proofs.«134164_j37452114821821_1_alg».proof.Proof.Blocks
import proofs.«134164_j37452114821821_1_alg».proof.Proof.Payload
import proofs.«134164_j37452114821821_1_alg».proof.Proof.Target

set_option maxRecDepth 16384

noncomputable section

open scoped BigOperators

namespace Cert.KernelIdeal.Accum

open Cert.KernelIdeal Cert.KernelIdeal.Gen Cert.KernelIdeal.Pieces Cert.KernelIdeal.Blocks Cert.KernelIdeal.Payload Cert.QGemm
open Idealize.ShloMosaic Idealize.ShloMosaic.TcCoe Idealize.ShloMosaic.ValueIdx
open Idealize.SL Idealize.SL.Sem

variable (m : (ℓ : Loc nD τ sig) → Buf (Elt Ideal) ℓ)

/-- The contribution of contraction position `j` to entry `(p, o)` of the product, as the body computes it: the
    group's scale is still the sum over the 16 groups of scale times expansion entry. -/
def kpart (c : Dev nD) (j : Fin 8) (p : Fin 256) (o : Fin 8192) : EReal :=
  ∑ k : Fin 1024, xarr m c (ix2 p (chunkIdx j k))
    * (qOf (qarr m c) o (chunkIdx j k)
        * ∑ g : Fin 16, warr m c (ix2 (gidx j g) o) * earr m c (ix2 (gidx j g) (chunkIdx j k)))

/-- The same with the position given as a natural number (zero past the last). -/
def kpartN (c : Dev nD) (n : ℕ) (p : Fin 256) (o : Fin 8192) : EReal :=
  if h : n < 8 then kpart m c ⟨n, h⟩ p o else 0

theorem kpartN_of_lt (c : Dev nD) {n : ℕ} (h : n < 8) (p : Fin 256) (o : Fin 8192) :
    kpartN m c n p o = kpart m c ⟨n, h⟩ p o := dif_pos h

/-- The left-to-right sum that starts from zero: `0 + P 0`, then `+ P 1`, …, `+ P n`. -/
def accOf (P : ℕ → EReal) : ℕ → EReal
  | 0 => 0 + P 0
  | n + 1 => accOf P n + P (n + 1)

/-- The output position of point number `n`. -/
def oOfN (n : ℕ) : Fin 8 := ⟨n / 8 % 8, Nat.mod_lt _ (by decide)⟩

theorem oOfN_eq (t : Fin cfg0.N) : oOfN t.val = oOf t :=
  Fin.ext (by have h : t.val < 64 := lt_of_lt_of_eq t.isLt N64; show t.val / 8 % 8 = t.val / 8; omega)

/-- What the accumulator holds after point number `n`. -/
def sAt (c : Dev nD) (n : ℕ) : FVec Ideal S256x1024 .f32 := fun y =>
  accOf (fun i => kpartN m c i ⟨(y 0).val, (y 0).isLt⟩ (chunkIdx (oOfN n) ⟨(y 1).val, (y 1).isLt⟩)) (n % 8)

theorem sAt_ix2 (c : Dev nD) (n : ℕ) (p : Fin 256) (q : Fin 1024) :
    sAt m c n (ix2 p q) = accOf (fun i => kpartN m c i p (chunkIdx (oOfN n) q)) (n % 8) := rfl

/-- At the first point of a row of the grid: zero plus the first part. -/
theorem sAt_first (c : Dev nD) (t : Fin cfg0.N) (h0 : t.val % 8 = 0) (p : Fin 256) (q : Fin 1024) :
    sAt m c t.val (ix2 p q) = 0 + kpart m c (jOf t) p (chunkIdx (oOf t) q) := by
  rw [sAt_ix2, h0, oOfN_eq]
  show 0 + kpartN m c 0 p (chunkIdx (oOf t) q) = _
  rw [kpartN_of_lt m c (show 0 < 8 by decide)]
  have hj : jOf t = ⟨0, by decide⟩ := Fin.ext h0
  rw [hj]

/-- At a later point: what the point before left, plus this point's part. -/
theorem sAt_later (c : Dev nD) (t : Fin cfg0.N) (h0 : ¬t.val % 8 = 0) (p : Fin 256) (q : Fin 1024) :
    sAt m c t.val (ix2 p q) = sAt m c (t.val - 1) (ix2 p q) + kpart m c (jOf t) p (chunkIdx (oOf t) q) := by
  obtain ⟨k, hk⟩ : ∃ k, t.val % 8 = k + 1 := ⟨t.val % 8 - 1, by omega⟩
  have hk8 : k + 1 < 8 := by have := Nat.mod_lt t.val (show 0 < 8 by decide); omega
  have hprev : (t.val - 1) % 8 = k := by omega
  have ho : oOfN (t.val - 1) = oOfN t.val := Fin.ext (by show (t.val - 1) / 8 % 8 = t.val / 8 % 8; omega)
  rw [sAt_ix2, sAt_ix2, hk, hprev, ho, oOfN_eq]
  show accOf _ k + kpartN m c (k + 1) p (chunkIdx (oOf t) q) = _
  rw [kpartN_of_lt m c hk8]
  have hj : jOf t = ⟨k + 1, hk8⟩ := Fin.ext hk
  rw [hj]

/-- One run of the accumulating store at point `t`, at entry `(p, q)`: the previous contents plus the point's part. -/
theorem step_apply (c : Dev nD) (t : Fin cfg0.N) (prev : FVec Ideal S256x1024 .f32) (p : Fin 256) (q : Fin 1024) :
    k0_pay2 (F := Ideal) (wsl (grid0.coords t) (wblk m c t)) (esl (grid0.coords t) (eblk m c t))
        (xsl (grid0.coords t) (xblk m c t)) (qblk m c t) prev (ix2 p q)
      = prev (ix2 p q) + kpart m c (jOf t) p (chunkIdx (oOf t) q) := by
  rw [pay2_apply]
  refine congrArg (prev (ix2 p q) + ·) (Finset.sum_congr rfl fun k _ => ?_)
  rw [xslab_apply, qblk_apply]
  refine congrArg₂ (· * ·) rfl (congrArg₂ (· * ·) rfl (Finset.sum_congr rfl fun g _ => ?_))
  rw [wslab_apply, eslab_apply]

/-- The accumulator after point `t`, given what it held after the point before. -/
theorem scratch_step (c : Dev nD) (t : Fin cfg0.N)
    (ih : t.val ≠ 0 → (outsAt0 m c (t.val - 1) (Nat.lt_of_le_of_lt (Nat.sub_le _ _) t.isLt)).2 = sAt m c (t.val - 1)) :
    (outsAt0 m c t.val t.isLt).2 = sAt m c t.val := by
  funext y
  obtain ⟨p, q, rfl⟩ : ∃ (p : Fin 256) (q : Fin 1024), y = ix2 p q := ⟨y 0, y 1, eq_ix2 y⟩
  by_cases h0 : t.val % 8 = 0
  · have h1 : ¬t.val % 8 = 7 := by omega
    rw [outsAt0_A m c t h0 h1]
    dsimp only
    rw [scratch_A]
    show k0_pay2 (F := Ideal) (wsl (grid0.coords t) (wblk m c t)) (esl (grid0.coords t) (eblk m c t))
        (xsl (grid0.coords t) (xblk m c t)) (qblk m c t) (k0_pay1 (F := Ideal)) (ix2 p q) = _
    rw [step_apply, pay1_apply, sAt_first m c t h0]
  · have hne : t.val ≠ 0 := fun h => h0 (by rw [h])
    by_cases h1 : t.val % 8 = 7
    · rw [outsAt0_C m c t h0 h1]
      dsimp only
      rw [scratch_C]
      show k0_pay2 (F := Ideal) (wsl (grid0.coords t) (wblk m c t)) (esl (grid0.coords t) (eblk m c t))
          (xsl (grid0.coords t) (xblk m c t)) (qblk m c t) (outsAt0 m c (t.val - 1) _).2 (ix2 p q) = _
      rw [step_apply, ih hne, sAt_later m c t h0]
    · rw [outsAt0_B m c t h0 h1]
      dsimp only
      rw [scratch_B]
      show k0_pay2 (F := Ideal) (wsl (grid0.coords t) (wblk m c t)) (esl (grid0.coords t) (eblk m c t))
          (xsl (grid0.coords t) (xblk m c t)) (qblk m c t) (outsAt0 m c (t.val - 1) _).2 (ix2 p q) = _
      rw [step_apply, ih hne, sAt_later m c t h0]

/-- The accumulator after every point, by induction on the point. -/
theorem scratch_eq (c : Dev nD) (n : ℕ) : ∀ h : n < cfg0.N, (outsAt0 m c n h).2 = sAt m c n := by
  induction n with
  | zero => exact fun h => scratch_step m c ⟨0, h⟩ (fun hne => absurd rfl hne)
  | succ k ih => exact fun h => scratch_step m c ⟨k + 1, h⟩ (fun _ => ih _)

/-- The block the last point of a row writes back, at entry `(p, q)`: the accumulator after that point, plus the
    correction, plus the bias. -/
theorem out_apply (c : Dev nD) (t : Fin cfg0.N) (h7 : t.val % 8 = 7) (p : Fin 256) (q : Fin 1024) :
    (outsAt0 m c t.val t.isLt).1 (ix2 p q)
      = sAt m c t.val (ix2 p q) + larr m c (ix2 p (chunkIdx (oOf t) q)) + barr m c (ix2 (0 : Fin 1) (chunkIdx (oOf t) q)) := by
  have h0 : ¬t.val % 8 = 0 := by omega
  have hs := scratch_eq m c t.val t.isLt
  rw [outsAt0_C m c t h0 h7] at hs ⊢
  dsimp only at hs ⊢
  rw [out_C]
  rw [scratch_C] at hs
  show k0_pay3 (F := Ideal) (k0_pay2 (F := Ideal) (wsl (grid0.coords t) (wblk m c t)) (esl (grid0.coords t) (eblk m c t))
      (xsl (grid0.coords t) (xblk m c t)) (qblk m c t) (outsAt0 m c (t.val - 1) _).2) (lblk m c t) (bblk m c t) (ix2 p q) = _
  rw [pay3_apply, lblk_apply, bblk_apply]
  exact congrArg (· + larr m c (ix2 p (chunkIdx (oOf t) q)) + barr m c (ix2 (0 : Fin 1) (chunkIdx (oOf t) q))) (congrFun hs (ix2 p q))

end Cert.KernelIdeal.Accum

end
-- ==== Proof.HostIn.lean ====
/-
  What the host operations before the call hand to it, as values over the extended reals.

  Four arrays are computed from the arguments before the call: the low-rank correction `(x · P_down) · P_upᵀ`, the
  quantized activations (scaled by the smoothing factors, quantized to 4 bits per group of 64 and dequantized, then
  narrowed to a 16-bit float format, which changes nothing over the extended reals), the bias as a one-row matrix, and
  the constant 128 × 8192 group-expansion matrix whose entry `(g, k)` is `1` when `k / 64 = g` and `0` otherwise.
  The first two are the very terms the reference forms from the same arguments; the matrix is read through the
  32-bit floor division its entries are computed with, which on column numbers below 8192 is the natural-number
  quotient (checked on the 128 × 64 words `64 g + r`).
-/
import proofs.«134164_j37452114821821_1_alg».proof.Proof.Gen.KernelIdeal.Frame
import proofs.«134164_j37452114821821_1_alg».proof.Proof.Gen.ReferenceIdeal.Read
import Idealize.ShloMosaic.Lib.StableHlo.Run
import Idealize.ShloMosaic.Lib.StableHlo.Predicate
import Idealize.ShloMosaic.Lib.ValueIdx
import Idealize.ShloMosaic.Lib.ValueLayout
import Mathlib.Data.EReal.Basic
noncomputable section
namespace Cert.KernelIdeal.HostIn
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-! ## The four arrays the call is handed, as values

Before the call the program computes four arrays from its arguments: the low-rank correction, the quantized
activations (narrowed to bf16, which at the ideal instance changes nothing), the constant group-expansion matrix, and
the bias as a one-row matrix. Each is read here as a value: the first two are the reference's own terms of the same
arguments, the bias row is the bias, and the matrix is the indicator of "column k lies in group g". -/

/-- At the ideal instance a narrowing float conversion changes nothing. -/
theorem truncf_ideal {s : Shape} {φ ψ : FTy} (a : FVec Ideal s φ) (h : ψ.bits < φ.bits) :
    (truncf ψ a h : FVec Ideal s ψ) = a := rfl

/-- The bf16 activations the call stages are the reference's quantized activations of the same arguments. -/
theorem V_xdeq (c : Dev nD) : (V m c main_v22 : S256x8192.Idx → EReal)
    = Cert.ReferenceIdeal.Read.val_main_v21 (F := Ideal) (m ((c : Thread nD τ).loc main_arg0)) (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [StableHlo.TRef.ofBuf, StableHlo.TRef.toBuf, cast_eq]
  rw [truncf_ideal]
  rfl

/-- The low-rank correction the call stages is the reference's. -/
theorem V_lora (c : Dev nD) : (V m c main_v3 : S256x8192.Idx → EReal)
    = Cert.ReferenceIdeal.Read.val_main_v3 (F := Ideal) (m ((c : Thread nD τ).loc main_arg0)) (m ((c : Thread nD τ).loc main_arg4)) (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The bias matrix is the bias with a leading unit axis. -/
theorem V_bias_eq (c : Dev nD) : (V m c main_v32 : S1x8192.Idx → EReal)
    = shapeCast S1x8192 (m ((c : Thread nD τ).loc main_arg6)) shapeCasts_S8192_S1x8192 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The one row of the reshaped bias is the bias. -/
theorem V_bias (c : Dev nD) (o : Fin 8192) : (V m c main_v32 : S1x8192.Idx → EReal) (ix2 (0 : Fin 1) o) = m ((c : Thread nD τ).loc main_arg6) (ix1 o) := by
  rw [V_bias_eq]
  exact shapeCast_a_1a_apply _ shapeCasts_S8192_S1x8192 (0 : Fin 1) o

/-! ### The group-expansion matrix

Its entry (g, k) compares the floor quotient k // 64, computed on 32-bit words, with g. -/

/-- The sign of a 32-bit word read as a two's-complement integer: -1, 0 or 1. -/
def sgn32 (w : BitVec 32) : BitVec 32 := if w = 0 then 0 else if w.msb then -1 else 1

/-- Floor division by 64 on a 32-bit word: the quotient rounded toward zero, less one when the signs of dividend and
    divisor differ and the remainder is not zero. -/
def floorDiv64 (w : BitVec 32) : BitVec 32 :=
  Scalar.select
    (IntOp.andi (IntOp.cmpi .ne (sgn32 w) (sgn32 64#32)) (IntOp.cmpi .ne (IntOp.remsi .host w 64#32) 0#32))
    (IntOp.subi (IntOp.divsi .host w 64#32) 1#32) (IntOp.divsi .host w 64#32)

/-- On the words 64 g + r with g < 128 and r < 64 the floor quotient by 64 is g (a finite check: 128 × 64 cases). -/
theorem floorDiv64_spec : ∀ g : Fin 128, ∀ r : Fin 64, floorDiv64 (BitVec.ofNat 32 (64 * g.val + r.val)) = BitVec.ofNat 32 g.val := by
  decide +kernel

/-- On a column number k < 8192 the floor quotient by 64 on words is the natural-number quotient. -/
theorem floorDiv64_ofNat (k : Fin 8192) : floorDiv64 (BitVec.ofNat 32 k.val) = BitVec.ofNat 32 (k.val / 64) := by
  have hq : k.val / 64 < 128 := by have := k.isLt; omega
  have hr : k.val % 64 < 64 := Nat.mod_lt _ (by decide)
  have h : floorDiv64 (BitVec.ofNat 32 (64 * (k.val / 64) + k.val % 64)) = BitVec.ofNat 32 (k.val / 64) :=
    floorDiv64_spec ⟨k.val / 64, hq⟩ ⟨k.val % 64, hr⟩
  rwa [Nat.div_add_mod] at h

/-- Two naturals below 2³² with the same 32-bit word are equal. -/
theorem ofNat32_inj {a b : ℕ} (ha : a < 2 ^ 32) (hb : b < 2 ^ 32) (h : BitVec.ofNat 32 a = BitVec.ofNat 32 b) : a = b := by
  have e := congrArg BitVec.toNat h
  rw [BitVec.toNat_ofNat, BitVec.toNat_ofNat, Nat.mod_eq_of_lt ha, Nat.mod_eq_of_lt hb] at e
  exact e

/-- The group-expansion matrix is the indicator of "column k lies in group g". -/
theorem V_onehot (c : Dev nD) (g : Fin 128) (k : Fin 8192) :
    (V m c main_v31 : S128x8192.Idx → EReal) (ix2 g k) = (if k.val / 64 = g.val then 1 else 0 : EReal) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [StableHlo.TRef.ofBuf, StableHlo.TRef.toBuf, cast_eq]
  -- every operation of the chain is elementwise or a broadcast, so the entry is the scalar chain at (g, k)
  show FloatOps.uitofp (F := Ideal) .bf16 (IntOp.cmpi .eq (floorDiv64 (BitVec.ofNat 32 k.val)) (BitVec.ofNat 32 g.val)) = _
  rw [floorDiv64_ofNat]
  have hk := k.isLt
  have hg := g.isLt
  by_cases e : k.val / 64 = g.val
  · rw [if_pos e, e, StableHlo.Predicate.cmpi_eq_iff.mpr rfl]
    show (((1 : ℕ) : ℝ) : EReal) = 1
    rw [Nat.cast_one, EReal.coe_one]
  · rw [if_neg e, eq_zero_of_ne_one fun h => e (ofNat32_inj (by omega) (by omega) (StableHlo.Predicate.cmpi_eq_iff.mp h))]
    show (((0 : ℕ) : ℝ) : EReal) = 0
    rw [Nat.cast_zero, EReal.coe_zero]

end Cert.KernelIdeal.HostIn
end
-- ==== Proof.Final.lean ====
/-
  The result array of the call, the program's result, and the bridge to the target.

  Only the last point of each row of the grid (`t % 8 = 7`) writes the output block back, and block `t` is columns
  `1024 (t / 8) ..` of the 256 × 8192 result; the eight written blocks tile the array (the point that covers column
  `o'` is `8 (o' / 1024) + 7`).  Each written block is the block of ONE matrix `Gk`: the left-to-right sum of the
  eight parts, plus the correction, plus the bias row.  The program's result is that matrix reshaped.

  `Gk` is the target `Gm`: in each part the sum over the 16 groups of scale times expansion entry picks the scale of
  the column's own group, because the expansion entry `(g, k)` is `1` when `k / 64 = g` and `0` otherwise and
  `(1024 j + k) / 64 = 16 j + k / 64`; and zero plus the eight parts in order is the sum over all 8192 columns.
-/
import proofs.«134164_j37452114821821_1_alg».proof.Proof.Accum
import proofs.«134164_j37452114821821_1_alg».proof.Proof.HostIn
import Idealize.ShloMosaic.Lib.StableHlo.Run

set_option maxRecDepth 16384

noncomputable section

open scoped BigOperators

namespace Cert.KernelIdeal.Final

open Cert.KernelIdeal Cert.KernelIdeal.Gen Cert.KernelIdeal.Pieces Cert.KernelIdeal.Blocks Cert.KernelIdeal.Payload
open Cert.KernelIdeal.Accum Cert.KernelIdeal.HostIn Cert.QGemm
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ### The matrix the call leaves in its result array, in the body's terms -/

/-- Entry `(p, o)`: zero plus the eight parts in order, plus the correction, plus the bias row. -/
def gk (c : Dev nD) (p : Fin 256) (o : Fin 8192) : EReal :=
  accOf (fun i => kpartN m c i p o) 7 + larr m c (ix2 p o) + barr m c (ix2 (0 : Fin 1) o)

/-- The same as an array. -/
def Gk (c : Dev nD) : FVec Ideal S256x8192 .f32 := fun j => gk m c ⟨(j 0).val, (j 0).isLt⟩ ⟨(j 1).val, (j 1).isLt⟩

theorem Gk_ix2 (c : Dev nD) (p : Fin 256) (o : Fin 8192) : Gk m c (ix2 p o) = gk m c p o := rfl

/-- The block a writing point leaves is columns `1024 (t / 8) ..` of that matrix. -/
theorem out_fun (c : Dev nD) (t : Fin cfg0.N) (h7 : t.val % 8 = 7) :
    (outsAt0 m c t.val t.isLt).1
      = fun y : S256x1024.Idx => Gk m c (ix2 (⟨(y 0).val, (y 0).isLt⟩ : Fin 256) (chunkIdx (oOf t) ⟨(y 1).val, (y 1).isLt⟩)) := by
  funext y
  obtain ⟨p, q, rfl⟩ : ∃ (p : Fin 256) (q : Fin 1024), y = ix2 p q := ⟨y 0, y 1, eq_ix2 y⟩
  rw [out_apply m c t h7, sAt_ix2, h7, oOfN_eq]
  rfl

/-! ### What is written back, and that the written blocks tile the array -/

theorem flushed_eq (c : Dev nD) (t : Fin cfg0.N) (hf : (cfg0.win 6).flush t = true) :
    (dats m 0 c).flushed 6 t = ((cfg0.win 6).blk t).view.read (Elt Ideal) (Gk m c) := by
  have h7 : t.val % 8 = 7 := (flush0_6 t).mp hf
  show (cfg0.win 6).cut (grid0.coords t) ((dats m 0 c).after 6 t) = _
  rw [after0_6, out_fun m c t h7]
  funext j
  show Gk m c (ix2 (⟨(j 0).val, (j 0).isLt⟩ : Fin 256) (chunkIdx (oOf t) ⟨(j 1).val, (j 1).isLt⟩)) = Gk m c (((cfg0.win 6).blk t).view.emb j)
  refine congrArg (Gk m c) (funext fun a => Fin.ext ?_)
  have hj0 : (j 0).val < 256 := (j 0).isLt
  have hj1 : (j 1).val < 1024 := (j 1).isLt
  match a with
  | ⟨0, _⟩ => show (j 0).val = win0_6.index t 0 * 256 + 1 * (j 0).val; rw [(widx6 t).1]; omega
  | ⟨1, _⟩ => show t.val / 8 * 1024 + (j 1).val = win0_6.index t 1 * 1024 + 1 * (j 1).val; rw [(widx6 t).2]; omega

/-- An entry of the array is in point `t`'s block iff each coordinate is in the block's range on its axis. -/
theorem mem_blk (t : Fin cfg0.N) (i : S256x8192.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v33).slice (win0_6.rect t)).set ↔ _
  rw [View.set_slice_whole, Rect.mem_set_unit]
  exact Iff.rfl

/-- Every entry of the array is in the block of a writing point. -/
theorem cover (i : S256x8192.Idx) : ∃ t : Fin cfg0.N, (cfg0.win 6).flush t = true ∧ i ∈ ((cfg0.win 6).blk t).view.set := by
  have hi0 : (i 0).val < 256 := (i 0).isLt
  have hi1 : (i 1).val < 8192 := (i 1).isLt
  have hN : cfg0.N = 64 := N64
  have hlt : 8 * ((i 1).val / 1024) + 7 < cfg0.N := by rw [hN]; omega
  refine ⟨⟨8 * ((i 1).val / 1024) + 7, hlt⟩, (flush0_6 _).mpr (by show (8 * ((i 1).val / 1024) + 7) % 8 = 7; omega), ?_⟩
  rw [mem_blk]
  intro a
  match a with
  | ⟨0, _⟩ =>
    show win0_6.index ⟨8 * ((i 1).val / 1024) + 7, hlt⟩ 0 * 256 ≤ (i 0).val ∧ (i 0).val < win0_6.index ⟨8 * ((i 1).val / 1024) + 7, hlt⟩ 0 * 256 + 256
    rw [(widx6 _).1]; omega
  | ⟨1, _⟩ =>
    show win0_6.index ⟨8 * ((i 1).val / 1024) + 7, hlt⟩ 1 * 1024 ≤ (i 1).val ∧ (i 1).val < win0_6.index ⟨8 * ((i 1).val / 1024) + 7, hlt⟩ 1 * 1024 + 1024
    rw [(widx6 _).2]
    show (8 * ((i 1).val / 1024) + 7) / 8 * 1024 ≤ (i 1).val ∧ (i 1).val < (8 * ((i 1).val / 1024) + 7) / 8 * 1024 + 1024
    omega

/-- So the result array ends holding the matrix. -/
theorem final_arr (c : Dev nD) : (dats m 0 c).arrAt 6 cfg0.N = Gk m c :=
  (dats m 0 c).arrAt_eq_of_cover 6 (Gk m c) (fun t hf => flushed_eq m c t hf) cover

/-! ### The program's result: the matrix with its rows split into 64 × 4 -/

theorem tail_eq (c : Dev nD) :
    Pipeline.afterTail₀ cfgs (dats m) 0 (V0 m) [hostOps1] c main_v34
      = shapeCast S64x4x8192 (Gk m c) shapeCasts_S256x8192_S64x4x8192 := by
  unfold Pipeline.afterTail₀
  show StableHlo.after hostOps1 _ (Proc.devRef .tc main_v34) = _
  after_results
  have e : Pipeline.withArrays (cfgs 0).spec c (V0 m c) (fun w => (dats m 0 c).arrAt w (cfgs 0).N) (Proc.devRef .tc main_v33) = Gk m c :=
    (Pipeline.withArrays_arr spec0 launch0.win.arr_inj c _ _ 6).trans (final_arr m c)
  exact congrArg (fun A => shapeCast S64x4x8192 A shapeCasts_S256x8192_S64x4x8192) e

/-- The frame run re-posted: the result at the reshaped matrix, the arguments unchanged. -/
theorem run : θ_run defs (onTc (τ := τ) (main (F := Ideal))) ⟨m, fun _ => 0, ρ⟩ fun r => ∀ c : Dev nD,
      r.2.mem ((c.tc : Thread nD τ).loc main_v34) = shapeCast S64x4x8192 (Gk m c) shapeCasts_S256x8192_S64x4x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v34 (Pipeline.mem_restRefs_of main_v34 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

/-! ### The matrix is the target -/

/-- The target's accumulator is the left-to-right sum of its parts. -/
theorem acc_eq_accOf (X : Fin 256 → Fin 8192 → EReal) (Qf : Fin 8192 → Fin 8192 → EReal) (Ws : Fin 128 → Fin 8192 → EReal)
    (n : ℕ) (p : Fin 256) (o : Fin 8192) : acc X Qf Ws n p o = accOf (fun i => partN X Qf Ws i p o) n := by
  induction n with
  | zero => rfl
  | succ k ih =>
    show acc X Qf Ws k p o + partN X Qf Ws (k + 1) p o = accOf (fun i => partN X Qf Ws i p o) k + partN X Qf Ws (k + 1) p o
    rw [ih]

/-- The sum over the 16 groups of scale times expansion entry is the scale of the column's own group. -/
theorem scale_pick (c : Dev nD) (j : Fin 8) (k : Fin 1024) (o : Fin 8192) :
    ∑ g : Fin 16, warr m c (ix2 (gidx j g) o) * earr m c (ix2 (gidx j g) (chunkIdx j k))
      = wOf (warr m c) (grp (chunkIdx j k)) o := by
  have hj := j.isLt
  have hk := k.isLt
  have hg0 : k.val / 64 < 16 := by omega
  have hgrp : gidx j ⟨k.val / 64, hg0⟩ = grp (chunkIdx j k) :=
    Fin.ext (by show j.val * 16 + k.val / 64 = (j.val * 1024 + k.val) / 64; omega)
  rw [onehot_sum (fun g => warr m c (ix2 (gidx j g) o)) (fun g => earr m c (ix2 (gidx j g) (chunkIdx j k))) ⟨k.val / 64, hg0⟩]
  · show warr m c (ix2 (gidx j ⟨k.val / 64, hg0⟩) o) = warr m c (ix2 (grp (chunkIdx j k)) o)
    rw [hgrp]
  · show (V m c main_v31 : S128x8192.Idx → EReal) (ix2 (gidx j ⟨k.val / 64, hg0⟩) (chunkIdx j k)) = (1 : EReal)
    rw [V_onehot, if_pos]
    show (j.val * 1024 + k.val) / 64 = j.val * 16 + k.val / 64
    omega
  · intro g hg
    show (V m c main_v31 : S128x8192.Idx → EReal) (ix2 (gidx j g) (chunkIdx j k)) = (0 : EReal)
    rw [V_onehot, if_neg]
    intro h
    apply hg
    apply Fin.ext
    have hgl := g.isLt
    have h' : (j.val * 1024 + k.val) / 64 = j.val * 16 + g.val := h
    show g.val = k.val / 64
    omega

/-- So a part as the body computes it is the target's part. -/
theorem kpart_eq (c : Dev nD) (j : Fin 8) (p : Fin 256) (o : Fin 8192) :
    kpart m c j p o = part (xOf (xarr m c)) (qOf (qarr m c)) (wOf (warr m c)) j p o := by
  unfold kpart part wdq
  refine Finset.sum_congr rfl fun k _ => ?_
  rw [scale_pick]
  rfl

theorem kpartN_eq (c : Dev nD) (n : ℕ) (p : Fin 256) (o : Fin 8192) :
    kpartN m c n p o = partN (xOf (xarr m c)) (qOf (qarr m c)) (wOf (warr m c)) n p o := by
  by_cases h : n < 8
  · rw [kpartN_of_lt m c h, partN_of_lt _ _ _ h, kpart_eq]
  · unfold kpartN partN
    rw [dif_neg h, dif_neg h]

/-- Entry by entry the matrix is the target's entry of the arrays as the region finds them. -/
theorem gk_eq (c : Dev nD) (p : Fin 256) (o : Fin 8192) :
    gk m c p o = out2 (xarr m c) (larr m c) (qarr m c) (warr m c) (m ((c : Thread nD τ).loc main_arg6)) p o := by
  unfold gk out2
  rw [← acc_seven, acc_eq_accOf,
    show (fun i => kpartN m c i p o) = fun i => partN (xOf (xarr m c)) (qOf (qarr m c)) (wOf (warr m c)) i p o from
      funext fun i => kpartN_eq m c i p o]
  show _ + _ + (V m c main_v32 : S1x8192.Idx → EReal) (ix2 (0 : Fin 1) o) = _
  rw [V_bias]

/-- The matrix is the target of the reference's own quantized activations and correction and of the launch
    contents of the codes, the scales and the bias. -/
theorem Gk_eq (c : Dev nD) :
    Gk m c = Gm (Cert.ReferenceIdeal.Read.val_main_v21 (F := Ideal) (m ((c : Thread nD τ).loc main_arg0)) (m ((c : Thread nD τ).loc main_arg3)))
      (Cert.ReferenceIdeal.Read.val_main_v3 (F := Ideal) (m ((c : Thread nD τ).loc main_arg0)) (m ((c : Thread nD τ).loc main_arg4)) (m ((c : Thread nD τ).loc main_arg5)))
      (m ((c : Thread nD τ).loc main_arg1)) (m ((c : Thread nD τ).loc main_arg2)) (m ((c : Thread nD τ).loc main_arg6)) := by
  have h : Gk m c = Gm (xarr m c) (larr m c) (qarr m c) (warr m c) (m ((c : Thread nD τ).loc main_arg6)) :=
    funext fun j => gk_eq m c _ _
  rw [h]
  show Gm (V m c main_v22 : S256x8192.Idx → EReal) (V m c main_v3 : S256x8192.Idx → EReal) (V m c main_arg1) (V m c main_arg2) _ = _
  rw [V_xdeq, V_lora, V_main_arg1, V_main_arg2]

end Cert.KernelIdeal.Final

end
-- ==== Proof.lean ====
/-
  The certificate of a 4-bit weight-quantized matrix product with a low-rank correction: a Pallas kernel that streams
  the integer weight codes tile by tile against a plain jnp reference, equal over the extended reals.

  Both programs first form, by the same host operations on the same arguments, the quantized activations `X`
  (256 × 8192) and the low-rank correction `L`.  The reference then dequantizes the whole 8192 × 8192 weight,
  `w[o, k] = (Q[o, k] - 8) * W[k / 64, o]`, and returns `X · wᵀ + L + b`.  The kernel walks an 8 × 8 grid: at output
  position `o` and contraction position `c` it rebuilds the 1024 × 1024 block of `w` from the codes and the 16 scale
  rows of the block (each scale spread over its 64 columns by a product with a 0/1 expansion matrix), multiplies the
  1024 matching columns of `X` into it and adds the result to an accumulator that is zeroed at `c = 0`; at `c = 7`
  it stores accumulator + `L` block + bias row.

  Over the extended reals a change of float format is the identity and a matrix product is the plain sum of products,
  so the two results are one function of the arguments: the product with the 0/1 matrix picks the column's own scale
  (`a * 0 = 0`, `a * 1 = a`), and zero plus the eight partial sums in order is the sum over all 8192 columns
  (the sum is commutative and associative).  No distributivity and no cancellation is used, so the finiteness of the
  inputs is never opened.

  The frames of the two kernel programs and the reference's run are the generated ones; `preserves` states nothing
  (the idealization rewrote no operation).  Written by hand: the specification (Spec, Target), the reference's matrix
  read entry by entry (RefValue), the values the host operations before the call hand to it (HostIn), what each case
  of the kernel body leaves (Pieces), its arithmetic at an entry (Payload), where the blocks sit (Blocks), the
  accumulator across the grid (Accum), and the result array, the reshape after the call and the bridge (Final).
-/
import proofs.«134164_j37452114821821_1_alg».proof.Defs
import proofs.«134164_j37452114821821_1_alg».proof.Proof.Gen.Kernel
import proofs.«134164_j37452114821821_1_alg».proof.Proof.Gen.Kernel.Skeleton
import proofs.«134164_j37452114821821_1_alg».proof.Proof.Gen.Kernel.Launch
import proofs.«134164_j37452114821821_1_alg».proof.Proof.Gen.Kernel.Points
import proofs.«134164_j37452114821821_1_alg».proof.Proof.Gen.Kernel.Frame
import proofs.«134164_j37452114821821_1_alg».proof.Proof.Gen.KernelIdeal
import proofs.«134164_j37452114821821_1_alg».proof.Proof.Gen.KernelIdeal.Skeleton
import proofs.«134164_j37452114821821_1_alg».proof.Proof.Gen.KernelIdeal.Launch
import proofs.«134164_j37452114821821_1_alg».proof.Proof.Gen.KernelIdeal.Points
import proofs.«134164_j37452114821821_1_alg».proof.Proof.Gen.KernelIdeal.Frame
import proofs.«134164_j37452114821821_1_alg».proof.Proof.Gen.ReferenceIdeal
import proofs.«134164_j37452114821821_1_alg».proof.Proof.Gen.Pre_finite_inputs
import proofs.«134164_j37452114821821_1_alg».proof.Proof.Gen.ReferenceIdeal.Run
import proofs.«134164_j37452114821821_1_alg».proof.Proof.Gen.ReferenceIdeal.Read
import proofs.«134164_j37452114821821_1_alg».proof.Proof.RefValue
import proofs.«134164_j37452114821821_1_alg».proof.Proof.Final
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- At the ideal instance both programs end with the target matrix, its rows split into 64 × 4: the kernel's result
    array holds the left-to-right sum of the eight parts plus correction plus bias, which is the target
    (`Final.Gk_eq`), and the reference's last stage is the target read entry by entry (`RefValue.result_eq`). -/
theorem algebraic : Cert.algebraic_KernelIdeal_ReferenceIdeal := by
  intro m ρ m' ρ' _ hagree
  refine ⟨fun c => shapeCast Cert.KernelIdeal.S64x4x8192 (Cert.KernelIdeal.Final.Gk m c)
      Cert.KernelIdeal.Gen.shapeCasts_S256x8192_S64x4x8192, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  show _ = shapeCast Cert.KernelIdeal.S64x4x8192 (Cert.KernelIdeal.Final.Gk m c) Cert.KernelIdeal.Gen.shapeCasts_S256x8192_S64x4x8192
  rw [Cert.ReferenceIdeal.Read.val_main_v37_eq, Cert.KernelIdeal.Final.Gk_eq]
  unfold Cert.ReferenceIdeal.Read.val_main_v37
  rw [Cert.ReferenceIdeal.RefValue.result_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
